-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S3x64 : Shape := ⟨2, ![3, 64]⟩
abbrev S64 : Shape := ⟨1, ![64]⟩
abbrev S64x64 : Shape := ⟨2, ![64, 64]⟩
abbrev S2x1000000 : Shape := ⟨2, ![2, 1000000]⟩
abbrev S100000 : Shape := ⟨1, ![100000]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x3 .f32) (main_arg1 : FVec F S3x64 .f32) (main_arg2 : FVec F S64 .f32) (main_arg3 : FVec F S64x64 .f32) (main_arg4 : FVec F S64 .f32) (main_arg5 : IVec S2x1000000 32) (main_arg6 : IVec S100000 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x64 .f32 := Host.absf main_arg1
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S100000x3 : Shape := ⟨2, ![100000, 3]⟩
abbrev S3x64 : Shape := ⟨2, ![3, 64]⟩
abbrev S64 : Shape := ⟨1, ![64]⟩
abbrev S64x64 : Shape := ⟨2, ![64, 64]⟩
abbrev S2x1000000 : Shape := ⟨2, ![2, 1000000]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x3 : Shape := ⟨2, ![1100000, 3]⟩
abbrev S1x64 : Shape := ⟨2, ![1, 64]⟩
abbrev S100000x64 : Shape := ⟨2, ![100000, 64]⟩
abbrev S5000x3 : Shape := ⟨2, ![5000, 3]⟩
abbrev S5000x64 : Shape := ⟨2, ![5000, 64]⟩
abbrev S1100000x64 : Shape := ⟨2, ![1100000, 64]⟩
abbrev S100000x1 : Shape := ⟨2, ![100000, 1]⟩
abbrev S512x64 : Shape := ⟨2, ![512, 64]⟩
abbrev S1000x64 : Shape := ⟨2, ![1000, 64]⟩
abbrev S1000x1 : Shape := ⟨2, ![1000, 1]⟩
abbrev S1000x512 : Shape := ⟨2, ![1000, 512]⟩
abbrev S512 : Shape := ⟨1, ![512]⟩
abbrev S512x1 : Shape := ⟨2, ![512, 1]⟩

abbrev nBuf : Space → Nat
  | .hbm => 97
  | .vmem => 17
  | .smem => 0
  | _ => 0

abbrev bufTy : (tb : Table) → Fin (tcTables nBuf tb) → BufTy
  | .hbm, ⟨0, _⟩ => ⟨S100000x3, .f32⟩
  | .hbm, ⟨1, _⟩ => ⟨S3x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S2x1000000, .i32⟩
  | .hbm, ⟨6, _⟩ => ⟨S100000, .i32⟩
  | .hbm, ⟨7, _⟩ => ⟨S100000, .i32⟩
  | .hbm, ⟨8, _⟩ => ⟨S1x1000000, .i32⟩
  | .hbm, ⟨9, _⟩ => ⟨S1000000, .i32⟩
  | .hbm, ⟨10, _⟩ => ⟨S1100000, .i32⟩
  | .hbm, ⟨11, _⟩ => ⟨S1x1000000, .i32⟩
  | .hbm, ⟨12, _⟩ => ⟨S1000000, .i32⟩
  | .hbm, ⟨13, _⟩ => ⟨S1100000, .i32⟩
  | .hbm, ⟨14, _⟩ => ⟨S_, .f32⟩
  | .hbm, ⟨15, _⟩ => ⟨S1100000, .f32⟩
  | .hbm, ⟨16, _⟩ => ⟨S_, .f32⟩
  | .hbm, ⟨17, _⟩ => ⟨S100000, .f32⟩
  | .hbm, ⟨18, _⟩ => ⟨S1100000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1100000, .i32⟩
  | .hbm, ⟨30, _⟩ => ⟨S1100000, .i1⟩
  | .hbm, ⟨31, _⟩ => ⟨S_, .i32⟩
  | .hbm, ⟨32, _⟩ => ⟨S1100000, .i32⟩
  | .hbm, ⟨33, _⟩ => ⟨S1100000, .i32⟩
  | .hbm, ⟨34, _⟩ => ⟨S1100000, .i32⟩
  | .hbm, ⟨35, _⟩ => ⟨S1100000x1, .i32⟩
  | .hbm, ⟨36, _⟩ => ⟨S1100000, .f32⟩
  | .hbm, ⟨37, _⟩ => ⟨S_, .i32⟩
  | .hbm, ⟨38, _⟩ => ⟨S1100000, .i32⟩
  | .hbm, ⟨39, _⟩ => ⟨S1100000, .i1⟩
  | .hbm, ⟨40, _⟩ => ⟨S_, .i32⟩
  | .hbm, ⟨41, _⟩ => ⟨S1100000, .i32⟩
  | .hbm, ⟨42, _⟩ => ⟨S1100000, .i32⟩
  | .hbm, ⟨43, _⟩ => ⟨S1100000, .i32⟩
  | .hbm, ⟨44, _⟩ => ⟨S1100000x1, .i32⟩
  | .hbm, ⟨45, _⟩ => ⟨S1100000, .f32⟩
  | .hbm, ⟨46, _⟩ => ⟨S1100000, .f32⟩
  | .hbm, ⟨47, _⟩ => ⟨S_, .i32⟩
  | .hbm, ⟨48, _⟩ => ⟨S1100000, .i32⟩
  | .hbm, ⟨49, _⟩ => ⟨S1100000, .i1⟩
  | .hbm, ⟨50, _⟩ => ⟨S_, .i32⟩
  | .hbm, ⟨51, _⟩ => ⟨S1100000, .i32⟩
  | .hbm, ⟨52, _⟩ => ⟨S1100000, .i32⟩
  | .hbm, ⟨53, _⟩ => ⟨S1100000, .i32⟩
  | .hbm, ⟨54, _⟩ => ⟨S1100000x1, .i32⟩
  | .hbm, ⟨55, _⟩ => ⟨S1100000x3, .f32⟩
  | .hbm, ⟨56, _⟩ => ⟨S1100000x1, .f32⟩
  | .hbm, ⟨57, _⟩ => ⟨S1100000x3, .f32⟩
  | .hbm, ⟨58, _⟩ => ⟨S1100000x3, .f32⟩
  | .hbm, ⟨59, _⟩ => ⟨S_, .f32⟩
  | .hbm, ⟨60, _⟩ => ⟨S100000x3, .f32⟩
  | .hbm, ⟨61, _⟩ => ⟨S1100000x1, .i32⟩
  | .hbm, ⟨62, _⟩ => ⟨S100000x3, .f32⟩
  | .hbm, ⟨63, _⟩ => ⟨S1x64, .f32⟩
  | .hbm, ⟨64, _⟩ => ⟨S100000x64, .f32⟩
  | .hbm, ⟨65, _⟩ => ⟨S_, .i32⟩
  | .hbm, ⟨66, _⟩ => ⟨S1100000, .i32⟩
  | .hbm, ⟨67, _⟩ => ⟨S1100000, .i1⟩
  | .hbm, ⟨68, _⟩ => ⟨S_, .i32⟩
  | .hbm, ⟨69, _⟩ => ⟨S1100000, .i32⟩
  | .hbm, ⟨70, _⟩ => ⟨S1100000, .i32⟩
  | .hbm, ⟨71, _⟩ => ⟨S1100000, .i32⟩
  | .hbm, ⟨72, _⟩ => ⟨S1100000x1, .i32⟩
  | .hbm, ⟨73, _⟩ => ⟨S1100000x64, .f32⟩
  | .hbm, ⟨74, _⟩ => ⟨S1100000x1, .f32⟩
  | .hbm, ⟨75, _⟩ => ⟨S1100000x64, .f32⟩
  | .hbm, ⟨76, _⟩ => ⟨S1100000x64, .f32⟩
  | .hbm, ⟨77, _⟩ => ⟨S_, .f32⟩
  | .hbm, ⟨78, _⟩ => ⟨S100000x64, .f32⟩
  | .hbm, ⟨79, _⟩ => ⟨S1100000x1, .i32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x1, .i32⟩
  | .hbm, ⟨84, _⟩ => ⟨S512x64, .f32⟩
  | .hbm, ⟨85, _⟩ => ⟨S_, .f32⟩
  | .hbm, ⟨86, _⟩ => ⟨S100000, .f32⟩
  | .hbm, ⟨87, _⟩ => ⟨S_, .f32⟩
  | .hbm, ⟨88, _⟩ => ⟨S512, .f32⟩
  | .hbm, ⟨89, _⟩ => ⟨S100000x1, .i32⟩
  | .hbm, ⟨90, _⟩ => ⟨S512, .f32⟩
  | .hbm, ⟨91, _⟩ => ⟨S_, .f32⟩
  | .hbm, ⟨92, _⟩ => ⟨S512, .f32⟩
  | .hbm, ⟨93, _⟩ => ⟨S512, .f32⟩
  | .hbm, ⟨94, _⟩ => ⟨S512x1, .f32⟩
  | .hbm, ⟨95, _⟩ => ⟨S512x64, .f32⟩
  | .hbm, ⟨96, _⟩ => ⟨S512x64, .f32⟩
  | .local _ .vmem, ⟨0, _⟩ => ⟨S5000x3, .f32⟩
  | .local _ .vmem, ⟨1, _⟩ => ⟨S5000x3, .f32⟩
  | .local _ .vmem, ⟨2, _⟩ => ⟨S3x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S1000x64, .f32⟩
  | .local _ .vmem, ⟨13, _⟩ => ⟨S1000x64, .f32⟩
  | .local _ .vmem, ⟨14, _⟩ => ⟨S1000x1, .i32⟩
  | .local _ .vmem, ⟨15, _⟩ => ⟨S1000x1, .i32⟩
  | .local _ .vmem, ⟨16, _⟩ => ⟨S512x64, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_9 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x3_0_1 : S1100000x1.BroadcastsInDim S1100000x3 (![0, 1] : Fin 2 → Fin S1100000x3.rank)
  bcast_S_S100000x3 : S_.BroadcastsInDim S100000x3 (![] : Fin 0 → Fin S100000x3.rank)
  shapeCasts_S64_S1x64 : S64.ShapeCasts S1x64
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S100000_S100000x1 : S100000.ShapeCasts S100000x1
  inb_S512x64_S512x64_0_0 : ∀ a, (![0, 0] : Fin 2 → Nat) a + S512x64.size a ≤ S512x64.size a
  h_S512x64 : 0 < S512x64.numel
  iota_S1000x512_d1_w32 : S1000x512.Iotas .tc 32 [1]
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  natLt_1_32 : 1 < 32
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  shapeCasts_S512x64_S512x64 : S512x64.ShapeCasts S512x64
  bcast_S_S512 : S_.BroadcastsInDim S512 (![] : Fin 0 → Fin S512.rank)
  bcast_S100000_S100000x1_0 : S100000.BroadcastsInDim S100000x1 (![0] : Fin 1 → Fin S100000x1.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x3_S1100000x1_S1100000x3_1_0_n_n_0_1_13_wf : GatherDims.WF S100000x3 S1100000x1 S1100000x3 [1] [0] [] [0] [] 1 ![1, 3]
  scatter_S100000x3_S1100000x1_S1100000x3_1_0_0_1_wf : ScatterDims.WF S100000x3 S1100000x1 S1100000x3 [1] [0] [0] 1
  dot_S5000x3_S3x64_S5000x64_1_0_0_1_n_n_wf : DotDims.WF S5000x3 S3x64 S5000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S5000x64_S64x64_S5000x64_1_0_0_1_n_n_wf : DotDims.WF S5000x64 S64x64 S5000x64 [1] [0] [0] [1] [] []
  dot_S1000x512_S1000x64_S512x64_0_0_1_1_n_n_wf : DotDims.WF S1000x512 S1000x64 S512x64 [0] [0] [1] [1] [] []
  scatter_S512_S100000x1_S100000_n_0_0_1_wf : ScatterDims.WF S512 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S100000x64.size a
  hwx2_0 : ∀ i : grid2.Coords, EltTy.bits .f32 = 32 ∨ (Rect.block (s := S100000x64) S1000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S100000x1.size a
  hwx2_1 : ∀ i : grid2.Coords, EltTy.bits .i32 = 32 ∨ (Rect.block (s := S100000x1) S1000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x64.size a ≤ S512x64.size a
  hwx2_2 : ∀ i : grid2.Coords, EltTy.bits .f32 = 32 ∨ (Rect.block (s := S512x64) S512x64.size (cc2_transform_2 i) (hinb2_2 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x3_S1100000x1_S1100000x3_1_0_n_n_0_1_13 : GatherDims S100000x3 S1100000x1 S1100000x3 where
  offsetDims := [1]
  collapsedSliceDims := [0]
  operandBatchingDims := []
  startIndicesBatchingDims := []
  startIndexMap := [0]
  indexVectorDim := 1
  sliceSizes := ![1, 3]
  wf := gather_S100000x3_S1100000x1_S1100000x3_1_0_n_n_0_1_13_wf
def scatter_S100000x3_S1100000x1_S1100000x3_1_0_0_1 : ScatterDims S100000x3 S1100000x1 S1100000x3 where
  updateWindowDims := [1]
  insertedWindowDims := [0]
  scatterDimsToOperandDims := [0]
  indexVectorDim := 1
  wf := scatter_S100000x3_S1100000x1_S1100000x3_1_0_0_1_wf
def dot_S5000x3_S3x64_S5000x64_1_0_0_1_n_n : DotDims S5000x3 S3x64 S5000x64 where
  lhsContracting := [1]
  rhsContracting := [0]
  lhsNonContracting := [0]
  rhsNonContracting := [1]
  lhsBatch := []
  rhsBatch := []
  wf := dot_S5000x3_S3x64_S5000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S1000x512_S1000x64_S512x64_0_0_1_1_n_n : DotDims S1000x512 S1000x64 S512x64 where
  lhsContracting := [0]
  rhsContracting := [0]
  lhsNonContracting := [1]
  rhsNonContracting := [1]
  lhsBatch := []
  rhsBatch := []
  wf := dot_S1000x512_S1000x64_S512x64_0_0_1_1_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

abbrev win0_0 : Pipeline.Window sig grid0 :=
  Pipeline.Window.ofSpec (Memref.whole main_v42) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v57) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S1000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S512x64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x3 : Shape := ⟨2, ![100000, 3]⟩
abbrev S3x64 : Shape := ⟨2, ![3, 64]⟩
abbrev S64 : Shape := ⟨1, ![64]⟩
abbrev S64x64 : Shape := ⟨2, ![64, 64]⟩
abbrev S2x1000000 : Shape := ⟨2, ![2, 1000000]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S1100000x64 : Shape := ⟨2, ![1100000, 64]⟩
abbrev S1x64 : Shape := ⟨2, ![1, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩

abbrev nBuf : Space → Nat
  | .hbm => 109
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S3x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S2x1000000, .i32⟩
  | .hbm, ⟨6, _⟩ => ⟨S100000, .i32⟩
  | .hbm, ⟨7, _⟩ => ⟨S100000, .i32⟩
  | .hbm, ⟨8, _⟩ => ⟨S1x1000000, .i32⟩
  | .hbm, ⟨9, _⟩ => ⟨S1000000, .i32⟩
  | .hbm, ⟨10, _⟩ => ⟨S1100000, .i32⟩
  | .hbm, ⟨11, _⟩ => ⟨S1x1000000, .i32⟩
  | .hbm, ⟨12, _⟩ => ⟨S1000000, .i32⟩
  | .hbm, ⟨13, _⟩ => ⟨S1100000, .i32⟩
  | .hbm, ⟨14, _⟩ => ⟨S_, .f32⟩
  | .hbm, ⟨15, _⟩ => ⟨S1100000, .f32⟩
  | .hbm, ⟨16, _⟩ => ⟨S_, .f32⟩
  | .hbm, ⟨17, _⟩ => ⟨S100000, .f32⟩
  | .hbm, ⟨18, _⟩ => ⟨S1100000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1100000, .i32⟩
  | .hbm, ⟨30, _⟩ => ⟨S1100000, .i1⟩
  | .hbm, ⟨31, _⟩ => ⟨S_, .i32⟩
  | .hbm, ⟨32, _⟩ => ⟨S1100000, .i32⟩
  | .hbm, ⟨33, _⟩ => ⟨S1100000, .i32⟩
  | .hbm, ⟨34, _⟩ => ⟨S1100000, .i32⟩
  | .hbm, ⟨35, _⟩ => ⟨S1100000x1, .i32⟩
  | .hbm, ⟨36, _⟩ => ⟨S1100000, .f32⟩
  | .hbm, ⟨37, _⟩ => ⟨S_, .i32⟩
  | .hbm, ⟨38, _⟩ => ⟨S1100000, .i32⟩
  | .hbm, ⟨39, _⟩ => ⟨S1100000, .i1⟩
  | .hbm, ⟨40, _⟩ => ⟨S_, .i32⟩
  | .hbm, ⟨41, _⟩ => ⟨S1100000, .i32⟩
  | .hbm, ⟨42, _⟩ => ⟨S1100000, .i32⟩
  | .hbm, ⟨43, _⟩ => ⟨S1100000, .i32⟩
  | .hbm, ⟨44, _⟩ => ⟨S1100000x1, .i32⟩
  | .hbm, ⟨45, _⟩ => ⟨S1100000, .f32⟩
  | .hbm, ⟨46, _⟩ => ⟨S1100000, .f32⟩
  | .hbm, ⟨47, _⟩ => ⟨S100000x64, .f32⟩
  | .hbm, ⟨48, _⟩ => ⟨S_, .i32⟩
  | .hbm, ⟨49, _⟩ => ⟨S1100000, .i32⟩
  | .hbm, ⟨50, _⟩ => ⟨S1100000, .i1⟩
  | .hbm, ⟨51, _⟩ => ⟨S_, .i32⟩
  | .hbm, ⟨52, _⟩ => ⟨S1100000, .i32⟩
  | .hbm, ⟨53, _⟩ => ⟨S1100000, .i32⟩
  | .hbm, ⟨54, _⟩ => ⟨S1100000, .i32⟩
  | .hbm, ⟨55, _⟩ => ⟨S1100000x1, .i32⟩
  | .hbm, ⟨56, _⟩ => ⟨S1100000x64, .f32⟩
  | .hbm, ⟨57, _⟩ => ⟨S1100000x1, .f32⟩
  | .hbm, ⟨58, _⟩ => ⟨S1100000x64, .f32⟩
  | .hbm, ⟨59, _⟩ => ⟨S1100000x64, .f32⟩
  | .hbm, ⟨60, _⟩ => ⟨S_, .f32⟩
  | .hbm, ⟨61, _⟩ => ⟨S100000x64, .f32⟩
  | .hbm, ⟨62, _⟩ => ⟨S1100000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S_, .i32⟩
  | .hbm, ⟨72, _⟩ => ⟨S1100000, .i32⟩
  | .hbm, ⟨73, _⟩ => ⟨S1100000, .i1⟩
  | .hbm, ⟨74, _⟩ => ⟨S_, .i32⟩
  | .hbm, ⟨75, _⟩ => ⟨S1100000, .i32⟩
  | .hbm, ⟨76, _⟩ => ⟨S1100000, .i32⟩
  | .hbm, ⟨77, _⟩ => ⟨S1100000, .i32⟩
  | .hbm, ⟨78, _⟩ => ⟨S1100000x1, .i32⟩
  | .hbm, ⟨79, _⟩ => ⟨S1100000x64, .f32⟩
  | .hbm, ⟨80, _⟩ => ⟨S1100000x1, .f32⟩
  | .hbm, ⟨81, _⟩ => ⟨S1100000x64, .f32⟩
  | .hbm, ⟨82, _⟩ => ⟨S1100000x64, .f32⟩
  | .hbm, ⟨83, _⟩ => ⟨S_, .f32⟩
  | .hbm, ⟨84, _⟩ => ⟨S100000x64, .f32⟩
  | .hbm, ⟨85, _⟩ => ⟨S1100000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S512x64, .f32⟩
  | .hbm, ⟨95, _⟩ => ⟨S100000x1, .i32⟩
  | .hbm, ⟨96, _⟩ => ⟨S512x64, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S512, .f32⟩
  | .hbm, ⟨101, _⟩ => ⟨S100000x1, .i32⟩
  | .hbm, ⟨102, _⟩ => ⟨S512, .f32⟩
  | .hbm, ⟨103, _⟩ => ⟨S_, .f32⟩
  | .hbm, ⟨104, _⟩ => ⟨S512, .f32⟩
  | .hbm, ⟨105, _⟩ => ⟨S512, .f32⟩
  | .hbm, ⟨106, _⟩ => ⟨S512x1, .f32⟩
  | .hbm, ⟨107, _⟩ => ⟨S512x64, .f32⟩
  | .hbm, ⟨108, _⟩ => ⟨S512x64, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call2_cst : Ref sig .tc := ⟨.hbm, 90, rfl⟩
abbrev main_call2_v0 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x3_S3x64_S100000x64_1_0_0_1_n_n_wf : DotDims.WF S100000x3 S3x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

class Facts : Prop extends Facts₀ where

variable [Facts]
-- ==== Proof.Spec.lean ====
/-
  The mathematics of the two programs, over the extended reals, as functions of whole arrays.

  A graph-convolution layer aggregates rows along edges: edge e reads the row of its source node (the start index
  read signed and clamped into the table, as a gather clamps it), scales it by the edge's weight, and adds it to the
  row of its destination node (an edge whose destination is outside the table is dropped, as a scatter drops it).
  The kernel aggregates first and multiplies by the weight matrix afterwards; the reference multiplies first and
  aggregates afterwards. Pooling adds the rows of the nodes of each graph: the kernel as a product with the
  one-hot matrix of the graph ids, tile by tile; the reference as a scatter-add along the graph ids.
-/
import Idealize.ShloMosaic.PureOps.Ideal
import Idealize.ShloMosaic.Lib.ValueIdx

noncomputable section

namespace Cert.Spec

open Idealize.ShloMosaic Idealize.ShloMosaic.ValueIdx

/-- The number of nodes, of edges (the self loops included), and of graphs. -/
abbrev NN : ℕ := 100000
abbrev NE : ℕ := 1100000
abbrev NG : ℕ := 512

/-- A rank-2 array of extended reals, a rank-1 array of them, a rank-2 array of 32-bit words. -/
abbrev A2 (a b : ℕ) : Type := (⟨2, ![a, b]⟩ : Shape).Idx → EReal
abbrev A1 (a : ℕ) : Type := (⟨1, ![a]⟩ : Shape).Idx → EReal
abbrev I2 (a b : ℕ) : Type := (⟨2, ![a, b]⟩ : Shape).Idx → BitVec 32

/-- The two coordinates of a rank-2 index. -/
abbrev row {a b : ℕ} (j : (⟨2, ![a, b]⟩ : Shape).Idx) : Fin a := ⟨(j 0).val, idx2_lt0 j⟩
abbrev col {a b : ℕ} (j : (⟨2, ![a, b]⟩ : Shape).Idx) : Fin b := ⟨(j 1).val, idx2_lt1 j⟩

/-- An extended real that is a real number. -/
def IsReal (x : EReal) : Prop := ∃ r : ℝ, x = (r : EReal)

/-- The node whose row edge `e` reads: its start index read signed and clamped into `[0, NN − 1]`. -/
def srcRow (si : I2 NE 1) (e : Fin NE) : Fin NN :=
  ⟨min (si (ix2 e (0 : Fin 1))).toInt.toNat (NN - 1), by show min _ (100000 - 1) < 100000; omega⟩

/-- AGGREGATION along the edges: entry (i, k) is the sum, over the edges whose destination index is i, of the
    source node's entry (·, k) times the edge's weight. -/
def agg {C : ℕ} (si di : I2 NE 1) (nrm : A1 NE) (H : A2 NN C) : A2 NN C := fun j =>
  ∑ e ∈ Finset.univ.filter (fun e : Fin NE => (di (ix2 e (0 : Fin 1))).toInt = ((j 0).val : ℤ)),
    H (ix2 (srcRow si e) (col j)) * nrm (ix1 e)

/-- A plain matrix product: entry (i, q) is the sum over k of H (i, k) · W (k, q). -/
def matProd {K : ℕ} (H : A2 NN K) (W : A2 K 64) : A2 NN 64 := fun j =>
  ∑ k : Fin K, H (ix2 (row j) k) * W (ix2 k (col j))

/-- The kernel's dense step on aggregated rows: the product with the weights, plus the bias row, clipped at 0. -/
def dense {K : ℕ} (A : A2 NN K) (W : A2 K 64) (b : A2 1 64) : A2 NN 64 := fun j =>
  max (matProd A W j + b (ix2 (0 : Fin 1) (col j))) 0

/-- A layer as the kernel computes it: aggregate, then multiply. -/
def layerK {K : ℕ} (si di : I2 NE 1) (nrm : A1 NE) (H : A2 NN K) (W : A2 K 64) (b : A2 1 64) : A2 NN 64 :=
  dense (agg si di nrm H) W b

/-- A layer as the reference computes it: multiply, then aggregate, add the bias, clip at 0. -/
def layerR {K : ℕ} (si di : I2 NE 1) (nrm : A1 NE) (H : A2 NN K) (W : A2 K 64) (b : A1 64) : A2 NN 64 := fun j =>
  max (agg si di nrm (matProd H W) j + b (ix1 (col j))) 0

/-- Row r of tile t, among the 100 tiles of 1000 rows the pooling kernel walks. -/
def tileRow (t : Fin 100) (r : Fin 1000) : Fin NN := ⟨1000 * t.val + r.val, by have := t.isLt; have := r.isLt; show _ < 100000; omega⟩

/-- POOLING as the kernel computes it: tile by tile, the product of the one-hot matrix of the graph words with the
    tile's rows. -/
def poolK (h : A2 NN 64) (b : I2 NN 1) : A2 NG 64 := fun j =>
  ∑ t : Fin 100, ∑ r : Fin 1000,
    (if b (ix2 (tileRow t r) (0 : Fin 1)) = BitVec.ofNat 32 (j 0).val then (1 : EReal) else 0) * h (ix2 (tileRow t r) (col j))

/-- POOLING as the reference computes it: the rows whose graph index, read signed, is g are added. -/
def poolR (h : A2 NN 64) (b : I2 NN 1) : A2 NG 64 := fun j =>
  ∑ r ∈ Finset.univ.filter (fun r : Fin NN => (b (ix2 r (0 : Fin 1))).toInt = ((j 0).val : ℤ)), h (ix2 r (col j))

end Cert.Spec

end
-- ==== Proof.LibRowGather.lean ====
/-
  A `stablehlo.gather` of WHOLE ROWS of a rank-2 operand, read at an index.

  What `x[idx]` of a table `x : [N, C]` at an integer vector `idx : [R]` lowers to: start indices `[R, 1]`, offset_dims
  `[1]`, collapsed_slice_dims `[0]`, start_index_map `[0]`, index_vector_dim `1`, slice sizes `[1, C]`. Result element
  `(r, j)` is the operand at row `idx[r, 0]` — read as a signed integer and clamped into `[0, N − 1]`, as the host gather
  clamps every start index — and column `j`.
-/
import Idealize.ShloMosaic.PureOps.Ideal
import Idealize.ShloMosaic.Lib.ValueIdx

noncomputable section

namespace Cert.LibRowGather

open Idealize.ShloMosaic Idealize.ShloMosaic.ValueIdx

variable {α : Type}

/-- Those dimension numbers for an operand `[N, C]`, start indices `[R, 1]` and result `[R, C]`; their conditions `wf`
    are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, j)`: the operand at the start index `idx[r, 0]`, read signed and clamped into
    `[0, N − 1]`, and at column `j`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowDims N C R wf) x idx y
      = x (ix2 (⟨min (idx (ix2 (⟨(y 0).val, idx2_lt0 y⟩ : Fin R) (0 : Fin 1))).toInt.toNat (N - 1), by omega⟩ : Fin N)
            (⟨(y 1).val, idx2_lt1 y⟩ : Fin C)) := by
  unfold Host.gather
  congr 1
  funext a
  refine Fin.ext ?_
  show (rowDims N C R wf).start y idx a + (rowDims N C R wf).batchCoord y a + (rowDims N C R wf).offCoord y a = _
  rw [GatherDims.batchCoord_eq_zero _ _ _ List.not_mem_nil]
  simp only [Nat.add_zero]
  match a with
  | ⟨0, _⟩ =>
    -- operand axis 0 (rows): in the start index map and collapsed, so the coordinate is the clamped start alone
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 2) ∈ (rowDims N C R wf).startIndexMap from List.mem_singleton.mpr rfl)]
    have hsi : (rowDims N C R wf).siIdx y ⟨List.idxOf (⟨0, by omega⟩ : Fin 2) (rowDims N C R wf).startIndexMap,
        List.idxOf_lt_length_iff.2 (List.mem_singleton.mpr rfl)⟩
          = ix2 (⟨(y 0).val, idx2_lt0 y⟩ : Fin R) (0 : Fin 1) := by
      funext b; refine Fin.ext ?_
      match b with
      | ⟨0, _⟩ => rfl
      | ⟨1, _⟩ => rfl
    rw [hsi]
    rfl
  | ⟨1, h1⟩ =>
    -- operand axis 1 (columns): not in the start index map, so the start is 0; it is the one kept axis, read by the
    -- result's offset axis 1
    have hne : (⟨1, h1⟩ : Fin 2) ≠ 0 := fun h => Nat.one_ne_zero (congrArg Fin.val h)
    have hst : (rowDims N C R wf).start y idx ⟨1, h1⟩ = 0 := by
      unfold GatherDims.start
      rw [dif_neg (fun h => hne (List.mem_singleton.mp h))]
    have hk : (⟨1, h1⟩ : Fin 2) ∈ (rowDims N C R wf).sKept :=
      (GatherDims.mem_sKept _ _).mpr ⟨fun h => hne (List.mem_singleton.mp h), List.not_mem_nil⟩
    rw [hst, Nat.zero_add]
    unfold GatherDims.offCoord
    rw [dif_pos hk]
    rfl

end Cert.LibRowGather

end
-- ==== Proof.LibRowScatter.lean ====
/-
  A float `stablehlo.scatter` with an `add` body that adds WHOLE ROWS into a rank-2 operand, read at an entry.

  What `segment_sum(u, idx)` / `x.at[idx].add(u)` of updates `u : [R, C]` at an integer vector `idx : [R]` into an
  operand `x : [N, C]` lowers to: scatter indices `[R, 1]`, update_window_dims `[1]`, inserted_window_dims `[0]`,
  scatter_dims_to_operand_dims `[0]`, index_vector_dim `1`. At the ideal values the result's entry (i, k) is the
  operand's entry plus the sum of the updates' entries (r, k) over the rows r whose index, read as a signed integer and
  NOT clamped, is i (a row whose index is outside `[0, N)` lands nowhere and is dropped).
-/
import Idealize.ShloMosaic.PureOps.Ideal
import Idealize.ShloMosaic.Lib.ValueIdx

noncomputable section

namespace Cert.LibRowScatter

open Idealize.ShloMosaic Idealize.ShloMosaic.ValueIdx

/-- Those dimension numbers for an operand `[N, C]`, scatter indices `[R, 1]` and updates `[R, C]`; their conditions
    `wf` are decided on a program's literal shapes. -/
abbrev rowScat (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- On the operand's row axis the window starts at the index the update's row reads, taken signed. -/
theorem start0 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScat N C R wf).start j idx (⟨0, by omega⟩ : Fin 2)
      = (idx (ix2 (⟨(j 0).val, idx2_lt0 j⟩ : Fin R) (0 : Fin 1))).toInt := by
  unfold ScatterDims.start
  rw [dif_pos (show (⟨0, by omega⟩ : Fin 2) ∈ (rowScat N C R wf).scatterDimsToOperandDims from List.mem_singleton.mpr rfl)]
  have hsi : (rowScat N C R wf).siIdx j ⟨List.idxOf (⟨0, by omega⟩ : Fin 2) (rowScat N C R wf).scatterDimsToOperandDims,
      List.idxOf_lt_length_iff.2 (List.mem_singleton.mpr rfl)⟩
        = ix2 (⟨(j 0).val, idx2_lt0 j⟩ : Fin R) (0 : Fin 1) := by
    funext b; refine Fin.ext ?_
    match b with
    | ⟨0, _⟩ => rfl
    | ⟨1, _⟩ => rfl
  rw [hsi]

/-- The operand's column axis is not a scattered axis: the window starts at column 0. -/
theorem start1 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScat N C R wf).start j idx (⟨1, by omega⟩ : Fin 2) = 0 := by
  unfold ScatterDims.start
  rw [dif_neg (fun h => Nat.one_ne_zero (congrArg Fin.val (List.mem_singleton.mp h)))]

/-- The row axis is an inserted window axis: the window is one row high, its coordinate there 0. -/
theorem window0 {N C R : Nat}
    (wf : ScatterDims.WF ⟨2, ![N, C]⟩ ⟨2, ![R, 1]⟩ ⟨2, ![R, C]⟩ [1] [0] [0] 1)
    (j : (⟨2, ![R, C]⟩ : Shape).Idx) :
    (rowScat N C R wf).window j (⟨0, by omega⟩ : Fin 2) = 0 := by
  unfold ScatterDims.window
  rw [dif_neg]
  intro h
  have : (⟨0, by omega⟩ : Fin 2) ∉ [(⟨0, by omega⟩ : Fin 2)] := (List.mem_filter.mp h).2 |> of_decide_eq_true
  exact this (List.mem_singleton.mpr rfl)

/-- The column axis carries the updates' window axis: the window coordinate is the update's column. -/
theorem window1 {N C R : Nat}
    (wf : ScatterDims.WF ⟨2, ![N, C]⟩ ⟨2, ![R, 1]⟩ ⟨2, ![R, C]⟩ [1] [0] [0] 1)
    (j : (⟨2, ![R, C]⟩ : Shape).Idx) :
    (rowScat N C R wf).window j (⟨1, by omega⟩ : Fin 2) = (j 1).val := by
  unfold ScatterDims.window
  have hk : (⟨1, by omega⟩ : Fin 2) ∈ (rowScat N C R wf).sKept :=
    List.mem_filter.mpr ⟨List.mem_finRange _,
      decide_eq_true (fun h => Nat.one_ne_zero (congrArg Fin.val (List.mem_singleton.mp h)))⟩
  rw [dif_pos hk]
  rfl

/-- WHERE AN UPDATE LANDS: update entry (r, c) lands on the operand's entry y exactly when the index of row r, read
    signed, is y's row and c is y's column (the column is always inside the operand, both arrays having C columns; the
    row is inside exactly when the signed index is in `[0, N)`, which it is once it equals a row of the operand). -/
theorem resultIdx_eq_some_iff {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (y : (⟨2, ![N, C]⟩ : Shape).Idx) :
    (rowScat N C R wf).resultIdx? j idx = some y ↔
      (idx (ix2 (⟨(j 0).val, idx2_lt0 j⟩ : Fin R) (0 : Fin 1))).toInt = ((y 0).val : ℤ) ∧ (j 1).val = (y 1).val := by
  have hy0 : (y 0).val = (y (⟨0, by omega⟩ : Fin 2)).val := rfl
  have hy1 : (y 1).val = (y (⟨1, by omega⟩ : Fin 2)).val := rfl
  have hyN : (y (⟨0, by omega⟩ : Fin 2)).val < N := idx2_lt0 y
  have hyC : (y (⟨1, by omega⟩ : Fin 2)).val < C := idx2_lt1 y
  rw [hy0, hy1]
  unfold ScatterDims.resultIdx?
  constructor
  · intro h
    by_cases hc : ∀ a, 0 ≤ (rowScat N C R wf).start j idx a + (rowScat N C R wf).window j a ∧
        (rowScat N C R wf).start j idx a + (rowScat N C R wf).window j a < (⟨2, ![N, C]⟩ : Shape).size a
    · rw [dif_pos hc] at h
      have hy := Option.some.inj h
      have e0 : ((rowScat N C R wf).start j idx (⟨0, by omega⟩ : Fin 2) + (rowScat N C R wf).window j (⟨0, by omega⟩ : Fin 2)).toNat
          = (y (⟨0, by omega⟩ : Fin 2)).val := congrArg (fun f => (f (⟨0, by omega⟩ : Fin 2)).val) hy
      have e1 : ((rowScat N C R wf).start j idx (⟨1, by omega⟩ : Fin 2) + (rowScat N C R wf).window j (⟨1, by omega⟩ : Fin 2)).toNat
          = (y (⟨1, by omega⟩ : Fin 2)).val := congrArg (fun f => (f (⟨1, by omega⟩ : Fin 2)).val) hy
      have c0 := (hc (⟨0, by omega⟩ : Fin 2)).1
      rw [start0, window0] at e0 c0
      rw [start1, window1] at e1
      constructor <;> omega
    · rw [dif_neg hc] at h
      cases h
  · rintro ⟨h0, h1⟩
    have hc : ∀ a, 0 ≤ (rowScat N C R wf).start j idx a + (rowScat N C R wf).window j a ∧
        (rowScat N C R wf).start j idx a + (rowScat N C R wf).window j a < (⟨2, ![N, C]⟩ : Shape).size a := by
      intro a
      match a with
      | ⟨0, _⟩ =>
        rw [start0, window0]
        show _ ∧ _ < (N : ℤ)
        omega
      | ⟨1, _⟩ =>
        rw [start1, window1]
        show _ ∧ _ < (C : ℤ)
        omega
    rw [dif_pos hc]
    congr 1
    funext a
    refine Fin.ext ?_
    match a with
    | ⟨0, _⟩ =>
      show ((rowScat N C R wf).start j idx (⟨0, by omega⟩ : Fin 2) + (rowScat N C R wf).window j (⟨0, by omega⟩ : Fin 2)).toNat = _
      rw [start0, window0]
      omega
    | ⟨1, _⟩ =>
      show ((rowScat N C R wf).start j idx (⟨1, by omega⟩ : Fin 2) + (rowScat N C R wf).window j (⟨1, by omega⟩ : Fin 2)).toNat = _
      rw [start1, window1]
      omega

/-- THE ROW SCATTER-ADD READ AT AN ENTRY `y = (i, k)`: the operand there plus the updates' entries (r, k) of the rows r
    whose index `idx[r, 0]`, read signed, is i. -/
theorem scatterAdd_rows_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (y : (⟨2, ![N, C]⟩ : Shape).Idx) :
    Ideal.hostScatterAdd (rowScat N C R wf) x idx upd y
      = x y + ∑ r ∈ Finset.univ.filter (fun r : Fin R => (idx (ix2 r (0 : Fin 1))).toInt = ((y 0).val : ℤ)),
          upd (ix2 r (⟨(y 1).val, idx2_lt1 y⟩ : Fin C)) := by
  unfold Ideal.hostScatterAdd
  congr 1
  -- an update index landing on y is (r, y's column) for a row r whose index is y's row: re-index by the row
  have back : ∀ j : (⟨2, ![R, C]⟩ : Shape).Idx, (j 1).val = (y 1).val →
      ix2 (⟨(j 0).val, idx2_lt0 j⟩ : Fin R) (⟨(y 1).val, idx2_lt1 y⟩ : Fin C) = j := by
    intro j h1
    funext a; refine Fin.ext ?_
    match a with
    | ⟨0, _⟩ => rfl
    | ⟨1, _⟩ => exact h1.symm
  refine Finset.sum_nbij' (fun j => (⟨(j 0).val, idx2_lt0 j⟩ : Fin R))
    (fun r => ix2 r (⟨(y 1).val, idx2_lt1 y⟩ : Fin C)) ?_ ?_ ?_ ?_ ?_
  · intro j hj
    rw [Finset.mem_filter] at hj ⊢
    exact ⟨Finset.mem_univ _, ((resultIdx_eq_some_iff wf idx j y).mp hj.2).1⟩
  · intro r hr
    rw [Finset.mem_filter] at hr ⊢
    exact ⟨Finset.mem_univ _, (resultIdx_eq_some_iff wf idx _ y).mpr ⟨hr.2, rfl⟩⟩
  · intro j hj
    rw [Finset.mem_filter] at hj
    exact back j ((resultIdx_eq_some_iff wf idx j y).mp hj.2).2
  · intro r _
    rfl
  · intro j hj
    rw [Finset.mem_filter] at hj
    exact congrArg upd (back j ((resultIdx_eq_some_iff wf idx j y).mp hj.2).2).symm

end Cert.LibRowScatter

end
-- ==== Proof.Agg.lean ====
/-
  One message-passing step as the host computes it — gather the source rows, scale each by its edge's weight
  (the weight vector broadcast along the columns), scatter-add into the zero array along the destination indices —
  is the aggregation `Spec.agg`.
-/
import proofs.«416046_j74466142978136_1_alg».proof.Proof.Spec
import proofs.«416046_j74466142978136_1_alg».proof.Proof.LibRowGather
import proofs.«416046_j74466142978136_1_alg».proof.Proof.LibRowScatter
import Idealize.ShloMosaic.Lib.Pipeline.Value
import Idealize.ShloMosaic.PureOps.Ideal.Laws

noncomputable section

namespace Cert.Agg

open Idealize.ShloMosaic Idealize.ShloMosaic.ValueIdx Cert.Spec Cert.LibRowGather Cert.LibRowScatter

/-- The step over any extents: N rows of the table, E edges, C columns. Entry (i, k) of the scatter-add into the
    zero array is the sum, over the edges whose destination index read signed is i, of the source row's entry (·, k) —
    the source index read signed and clamped into the table — times the edge's weight. -/
theorem mp_apply {N E C : ℕ} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (hb0 : (⟨0, ![]⟩ : Shape).BroadcastsInDim ⟨2, ![N, C]⟩ ![])
    (hb1 : (⟨1, ![E]⟩ : Shape).BroadcastsInDim ⟨2, ![E, 1]⟩ ![0])
    (hb2 : (⟨2, ![E, 1]⟩ : Shape).BroadcastsInDim ⟨2, ![E, C]⟩ ![0, 1])
    (H : FVec Ideal ⟨2, ![N, C]⟩ .f32) (si di : IVec ⟨2, ![E, 1]⟩ 32) (nrm : FVec Ideal ⟨1, ![E]⟩ .f32)
    (j : (⟨2, ![N, C]⟩ : Shape).Idx) :
    Host.scatterAdd (F := Ideal) (rowScat N C E wfs)
        (broadcastInDim ⟨2, ![N, C]⟩ ![] hb0 (constant (F := Ideal) ⟨0, ![]⟩ .f32 0x00000000#32)) di
        (mulf (Host.gather (rowDims N C E wfg) H si)
          (broadcastInDim ⟨2, ![E, C]⟩ ![0, 1] hb2 (broadcastInDim ⟨2, ![E, 1]⟩ ![0] hb1 nrm))) j
      = ∑ e ∈ Finset.univ.filter (fun e : Fin E => (di (ix2 e (0 : Fin 1))).toInt = ((j 0).val : ℤ)),
          H (ix2 (⟨min (si (ix2 e (0 : Fin 1))).toInt.toNat (N - 1), by omega⟩ : Fin N) (⟨(j 1).val, idx2_lt1 j⟩ : Fin C))
            * nrm (ix1 e) := by
  refine (scatterAdd_rows_apply wfs _ di _ j).trans ?_
  -- the operand is the zero array
  have hz : broadcastInDim ⟨2, ![N, C]⟩ ![] hb0 (constant (F := Ideal) ⟨0, ![]⟩ .f32 0x00000000#32) j = 0 :=
    Ideal.ofBits_zero_f32
  rw [hz, zero_add]
  refine Finset.sum_congr rfl (fun r _ => ?_)
  rw [mulf_apply, gather_rows_apply hN wfg H si]
  -- the weight vector, broadcast along the columns, read at (r, ·) is the weight of edge r
  have hr : (if E = 1 then 0 else r.val) = r.val := by
    by_cases h : E = 1
    · rw [if_pos h]; have := r.isLt; omega
    · rw [if_neg h]
  have hw : broadcastInDim ⟨2, ![E, C]⟩ ![0, 1] hb2 (broadcastInDim ⟨2, ![E, 1]⟩ ![0] hb1 nrm)
      (ix2 r (⟨(j 1).val, idx2_lt1 j⟩ : Fin C)) = nrm (ix1 r) := by
    rw [broadcastInDim_apply ![0, 1] hb2 _ _ (ix2 r (0 : Fin 1)) (fun a => by
      match a with
      | ⟨0, _⟩ => exact hr.symm
      | ⟨1, _⟩ => exact (if_pos rfl).symm)]
    rw [broadcastInDim_apply ![0] hb1 nrm _ (ix1 r) (fun a => by
      match a with
      | ⟨0, _⟩ => exact hr.symm)]
  rw [hw]
  rfl

/-- The host's message-passing step over row-shaped dimension numbers (`g`, `d`: any records equal to the row
    forms — a printed record is, by `rfl`), for `C` columns: it is `Spec.agg`. -/
theorem mp_eq_agg {C : ℕ}
    (wfg : GatherDims.WF ⟨2, ![NN, C]⟩ ⟨2, ![NE, 1]⟩ ⟨2, ![NE, C]⟩ [1] [0] [] [0] [] 1 ![1, C])
    (wfs : ScatterDims.WF ⟨2, ![NN, C]⟩ ⟨2, ![NE, 1]⟩ ⟨2, ![NE, C]⟩ [1] [0] [0] 1)
    (g : GatherDims ⟨2, ![NN, C]⟩ ⟨2, ![NE, 1]⟩ ⟨2, ![NE, C]⟩) (hg : g = rowDims NN C NE wfg)
    (d : ScatterDims ⟨2, ![NN, C]⟩ ⟨2, ![NE, 1]⟩ ⟨2, ![NE, C]⟩) (hd : d = rowScat NN C NE wfs)
    (hb0 : (⟨0, ![]⟩ : Shape).BroadcastsInDim ⟨2, ![NN, C]⟩ ![])
    (hb1 : (⟨1, ![NE]⟩ : Shape).BroadcastsInDim ⟨2, ![NE, 1]⟩ ![0])
    (hb2 : (⟨2, ![NE, 1]⟩ : Shape).BroadcastsInDim ⟨2, ![NE, C]⟩ ![0, 1])
    (H : FVec Ideal ⟨2, ![NN, C]⟩ .f32) (si di : IVec ⟨2, ![NE, 1]⟩ 32) (nrm : FVec Ideal ⟨1, ![NE]⟩ .f32) :
    Host.scatterAdd (F := Ideal) d
        (broadcastInDim ⟨2, ![NN, C]⟩ ![] hb0 (constant (F := Ideal) ⟨0, ![]⟩ .f32 0x00000000#32)) di
        (mulf (Host.gather g H si)
          (broadcastInDim ⟨2, ![NE, C]⟩ ![0, 1] hb2 (broadcastInDim ⟨2, ![NE, 1]⟩ ![0] hb1 nrm)))
      = agg si di nrm H := by
  -- entry by entry, the step over any extents at this program's 100000 rows and 1100000 edges
  subst hg hd
  funext j
  exact mp_apply (by decide) wfg wfs hb0 hb1 hb2 H si di nrm j

end Cert.Agg

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.KRegion0.lean ====
/-
  The first dense region of the kernel, as a value: twenty grid points, point t computing rows [5000 t, 5000 t + 5000)
  of the output from the same rows of the aggregated input, the whole 3 × 64 weight matrix and the 1 × 64 bias row:
  entry (i, q) is max (Σ_k A (i, k) · W (k, q) + b (0, q), 0). The blocks tile the array, so the array the region leaves
  is that function of the arrays it finds.
-/
import proofs.«416046_j74466142978136_1_alg».proof.Proof.Gen.KernelIdeal.Frame
import proofs.«416046_j74466142978136_1_alg».proof.Proof.Spec
import proofs.«416046_j74466142978136_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The block's arithmetic at an entry: row p of the loaded rows times column q of the weights, plus the bias at
    column q, clipped below at 0. (The casts to the same shape and the narrowing of the operands are the identity on
    extended reals; the accumulator starts at 0.) -/
theorem pay0_apply (x0 : Vec Ideal S5000x3 .f32) (x1 : Vec Ideal S3x64 .f32) (x2 : Vec Ideal S1x64 .f32)
    (p : Fin 5000) (q : Fin 64) :
    k0_pay1 (F := Ideal) x0 x1 x2 (ix2 p q)
      = max ((∑ k : Fin 3, x0 (ix2 p k) * x1 (ix2 k q)) + x2 (ix2 (0 : Fin 1) q)) 0 := by
  have hm : matmul dot_S5000x3_S3x64_S5000x64_1_0_0_1_n_n none (truncf .bf16 x0 bitsLt_bf16_f32)
      (truncf .bf16 x1 bitsLt_bf16_f32) (constant (F := Ideal) S5000x64 .f32 0x00000000#32) (ix2 p q)
        = ∑ k : Fin 3, x0 (ix2 p k) * x1 (ix2 k q) :=
    Idealize.ShloMosaic.PlainDot.matmul_zero_apply dot_S5000x3_S3x64_S5000x64_1_0_0_1_n_n rfl rfl rfl rfl rfl rfl rfl rfl
      none _ _ p q
  have hb : broadcastTo S5000x64 x2 broadcasts_S1x64_S5000x64 (ix2 p q) = x2 (ix2 (0 : Fin 1) q) :=
    broadcastTo_apply x2 broadcasts_S1x64_S5000x64 (ix2 p q) (ix2 (0 : Fin 1) q) (fun a => by
      match a with
      | ⟨0, _⟩ => rfl
      | ⟨1, _⟩ => rfl)
  unfold k0_pay1
  rw [maximumf_apply, addf_apply, broadcast_apply, shapeCast_self, shapeCast_self, hm, hb]
  show max _ (Ideal.ofBits .f32 0x00000000#32) = _
  rw [Ideal.ofBits_zero_f32]

section Blocks

variable (V : (c : Dev nD) → (b : Ref sig .tc) → Buf (Elt Ideal) ((c : Thread nD τ).loc b))

/-- The offsets of every access of the body are zero on both axes. -/
theorem offsets_zero0 : (![0, 0] : Fin 2 → Nat) = fun _ => 0 := funext fun a => by fin_cases a <;> rfl

/-- Where the blocks sit, decided once over the twenty points: at point t the row block and the output block are
    block (t, 0) of their arrays; the weights and the bias row are block (0, 0), the whole of theirs. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The row block at point t is rows 5000 t … 5000 t + 4999 of the aggregated input. -/
theorem rows0_apply (c : Dev nD) (t : Fin cfg0.N) (x : S5000x3.Idx) (i : S100000x3.Idx)
    (h0 : (i 0).val = 5000 * t.val + (x 0).val) (h1 : (i 1).val = (x 1).val) :
    (iblk0 V c 0 t : Vec Ideal S5000x3 .f32) x = (V c main_v42 : S100000x3.Idx → Elt Ideal .f32) i := by
  obtain ⟨e0, e1, -⟩ := block_index0 t
  unfold iblk0
  rw [View.read_apply]
  show V c main_v42 _ = V c main_v42 _
  congr 1
  funext a
  apply Fin.ext
  match a with
  | ⟨0, _⟩ => show win0_0.index t (0 : Fin 2) * 5000 + 1 * (x 0).val = (i 0).val; rw [e0, h0]; omega
  | ⟨1, _⟩ => show win0_0.index t (1 : Fin 2) * 3 + 1 * (x 1).val = (i 1).val; rw [e1, h1]; omega

/-- The weight block at every point is the whole weight matrix. -/
theorem weights0_apply (c : Dev nD) (t : Fin cfg0.N) (x : S3x64.Idx) :
    (iblk0 V c 1 t : Vec Ideal S3x64 .f32) x = (V c main_arg1 : S3x64.Idx → Elt Ideal .f32) x := by
  obtain ⟨-, -, e0, e1, -⟩ := block_index0 t
  unfold iblk0
  rw [View.read_apply]
  show V c main_arg1 _ = V c main_arg1 _
  congr 1
  funext a
  apply Fin.ext
  match a with
  | ⟨0, _⟩ => show win0_1.index t (0 : Fin 2) * 3 + 1 * (x 0).val = (x 0).val; rw [e0]; omega
  | ⟨1, _⟩ => show win0_1.index t (1 : Fin 2) * 64 + 1 * (x 1).val = (x 1).val; rw [e1]; omega

/-- The bias block at every point is the whole bias row. -/
theorem bias0_apply (c : Dev nD) (t : Fin cfg0.N) (x : S1x64.Idx) :
    (iblk0 V c 2 t : Vec Ideal S1x64 .f32) x = (V c main_v43 : S1x64.Idx → Elt Ideal .f32) x := by
  obtain ⟨-, -, -, -, e0, e1, -⟩ := block_index0 t
  unfold iblk0
  rw [View.read_apply]
  show V c main_v43 _ = V c main_v43 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 64 + 1 * (x 1).val = (x 1).val; rw [e1]; omega

/-- The block's arithmetic on blocks that are rows 5000 s … of A, all of W and all of b is the dense step of A, W, b
    at the entry of the array where the block's entry sits. -/
theorem dense_block (x0 : Vec Ideal S5000x3 .f32) (x1 : Vec Ideal S3x64 .f32) (x2 : Vec Ideal S1x64 .f32)
    (A : Cert.Spec.A2 100000 3) (W : Cert.Spec.A2 3 64) (b : Cert.Spec.A2 1 64) (s : Nat)
    (h0 : ∀ (x : S5000x3.Idx) (i : S100000x3.Idx), (i 0).val = 5000 * s + (x 0).val → (i 1).val = (x 1).val → x0 x = A i)
    (h1 : ∀ x : S3x64.Idx, x1 x = W x) (h2 : ∀ x : S1x64.Idx, x2 x = b x)
    (y : S5000x64.Idx) (i : S100000x64.Idx) (hi0 : (i 0).val = 5000 * s + (y 0).val) (hi1 : (i 1).val = (y 1).val) :
    k0_pay1 (F := Ideal) x0 x1 x2 y = Cert.Spec.dense (K := 3) A W b i := by
  obtain ⟨p, q, rfl⟩ : ∃ (p : Fin 5000) (q : Fin 64), y = ix2 p q := ⟨y 0, y 1, eq_ix2 y⟩
  have hp : (i 0).val = 5000 * s + p.val := hi0
  have hq : (i 1).val = q.val := hi1
  have hcol : Cert.Spec.col i = q := Fin.ext hq
  rw [pay0_apply]
  unfold Cert.Spec.dense Cert.Spec.matProd
  rw [hcol, h2]
  congr 2
  refine Finset.sum_congr rfl fun k _ => ?_
  rw [h0 (ix2 p k) (ix2 (Cert.Spec.row i) k) hp rfl, h1]

/-- What point t writes back is block t of the dense step of the arrays the region finds. -/
theorem flushed0_eq (c : Dev nD) (t : Fin cfg0.N) :
    (dat0 (F := Ideal) V c).flushed 3 t
      = ((cfg0.win 3).blk t).view.read (Elt Ideal) (Cert.Spec.dense (K := 3) (V c main_v42) (V c main_arg1) (V c main_v43)) := by
  show (cfg0.win 3).cut (grid0.coords t) ((dat0 V c).after 3 t) = _
  rw [after0_3]
  unfold out0_3
  rw [View.canon_unit_zero offsets_zero0]
  simp only [View.ld_unit_zero (S := S5000x3) offsets_zero0, View.ld_unit_zero (S := S3x64) offsets_zero0,
    View.ld_unit_zero (S := S1x64) offsets_zero0]
  obtain ⟨-, -, -, -, -, -, e0, e1⟩ := block_index0 t
  funext j
  refine dense_block (iblk0 V c 0 t) (iblk0 V c 1 t) (iblk0 V c 2 t) _ _ _ t.val
    (rows0_apply V c t) (weights0_apply V c t) (bias0_apply V c t)
    ((cfg0.win 3).xinj (grid0.coords t) j) (((cfg0.win 3).blk t).view.emb j) ?_ ?_
  · show win0_3.index t (0 : Fin 2) * 5000 + 1 * (j 0).val = 5000 * t.val + (j 0).val
    rw [e0]; omega
  · show win0_3.index t (1 : Fin 2) * 64 + 1 * (j 1).val = (j 1).val
    rw [e1]; omega

/-- An index of the output array is in point t's block iff each coordinate is in the block's range on its axis. -/
theorem mem_blk0 (t : Fin cfg0.N) (i : S100000x64.Idx) :
    i ∈ ((cfg0.win 3).blk t).view.set
      ↔ ∀ a : Fin 2, win0_3.index t a * S5000x64.size a ≤ (i a).val ∧ (i a).val < win0_3.index t a * S5000x64.size a + S5000x64.size a := by
  show i ∈ ((View.whole main_v44).slice (win0_3.rect t)).set ↔ _
  rw [View.set_slice_whole, Rect.mem_set_unit]
  exact Iff.rfl

/-- Every entry of the output array is written back by some point: row r by point r / 5000. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e0, e1⟩ := block_index0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 64 ≤ (i 1).val ∧ (i 1).val < win0_3.index t (1 : Fin 2) * 64 + 64
    rw [e1]; omega

end Blocks

/-- What region 0 leaves in its output array, at the ideal values, from the arrays `V` it finds: `Spec.dense` of the
    aggregated rows (window 0), the weights (window 1) and the bias row (window 2). -/
theorem region0_value (V : (c : Dev nD) → (b : Ref sig .tc) → Buf (Elt Ideal) ((c : Thread nD τ).loc b)) (c : Dev nD) :
    (dat0 (F := Ideal) V c).arrAt 3 cfg0.N
      = Cert.Spec.dense (K := 3) (V c main_v42) (V c main_arg1) (V c main_v43) :=
  (dat0 (F := Ideal) V c).arrAt_eq_of_cover 3 _ (fun t _ => flushed0_eq V c t) cover0

end Cert.KernelIdeal.RegionValue

end
-- ==== Proof.KRegion1.lean ====
/-
  The second dense region of the kernel, as a value: twenty grid points, point t computing rows [5000 t, 5000 t + 5000)
  of the output from the same rows of the aggregated input, the whole 64 × 64 weight matrix and the 1 × 64 bias row:
  entry (i, q) is max (Σ_k A (i, k) · W (k, q) + b (0, q), 0). The blocks tile the array, so the array the region leaves
  is that function of the arrays it finds.
-/
import proofs.«416046_j74466142978136_1_alg».proof.Proof.Gen.KernelIdeal.Frame
import proofs.«416046_j74466142978136_1_alg».proof.Proof.Spec
import proofs.«416046_j74466142978136_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The block's arithmetic at an entry: row p of the loaded rows times column q of the weights, plus the bias at
    column q, clipped below at 0. (The casts to the same shape and the narrowing of the operands are the identity on
    extended reals; the accumulator starts at 0.) -/
theorem pay1_apply (x0 : Vec Ideal S5000x64 .f32) (x1 : Vec Ideal S64x64 .f32) (x2 : Vec Ideal S1x64 .f32)
    (p : Fin 5000) (q : Fin 64) :
    k1_pay1 (F := Ideal) x0 x1 x2 (ix2 p q)
      = max ((∑ k : Fin 64, x0 (ix2 p k) * x1 (ix2 k q)) + x2 (ix2 (0 : Fin 1) q)) 0 := by
  have hm : matmul dot_S5000x64_S64x64_S5000x64_1_0_0_1_n_n none (truncf .bf16 x0 bitsLt_bf16_f32)
      (truncf .bf16 x1 bitsLt_bf16_f32) (constant (F := Ideal) S5000x64 .f32 0x00000000#32) (ix2 p q)
        = ∑ k : Fin 64, x0 (ix2 p k) * x1 (ix2 k q) :=
    Idealize.ShloMosaic.PlainDot.matmul_zero_apply dot_S5000x64_S64x64_S5000x64_1_0_0_1_n_n rfl rfl rfl rfl rfl rfl rfl rfl
      none _ _ p q
  have hb : broadcastTo S5000x64 x2 broadcasts_S1x64_S5000x64 (ix2 p q) = x2 (ix2 (0 : Fin 1) q) :=
    broadcastTo_apply x2 broadcasts_S1x64_S5000x64 (ix2 p q) (ix2 (0 : Fin 1) q) (fun a => by
      match a with
      | ⟨0, _⟩ => rfl
      | ⟨1, _⟩ => rfl)
  unfold k1_pay1
  rw [maximumf_apply, addf_apply, broadcast_apply, shapeCast_self, shapeCast_self, hm, hb]
  show max _ (Ideal.ofBits .f32 0x00000000#32) = _
  rw [Ideal.ofBits_zero_f32]

section Blocks

variable (V : (c : Dev nD) → (b : Ref sig .tc) → Buf (Elt Ideal) ((c : Thread nD τ).loc b))

/-- The offsets of every access of the body are zero on both axes. -/
theorem offsets_zero1 : (![0, 0] : Fin 2 → Nat) = fun _ => 0 := funext fun a => by fin_cases a <;> rfl

/-- Where the blocks sit, decided once over the twenty points: at point t the row block and the output block are
    block (t, 0) of their arrays; the weights and the bias row are block (0, 0), the whole of theirs. -/
theorem block_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The row block at point t is rows 5000 t … 5000 t + 4999 of the aggregated input. -/
theorem rows1_apply (c : Dev nD) (t : Fin cfg1.N) (x : S5000x64.Idx) (i : S100000x64.Idx)
    (h0 : (i 0).val = 5000 * t.val + (x 0).val) (h1 : (i 1).val = (x 1).val) :
    (iblk1 V c 0 t : Vec Ideal S5000x64 .f32) x = (V c main_v57 : S100000x64.Idx → Elt Ideal .f32) i := by
  obtain ⟨e0, e1, -⟩ := block_index1 t
  unfold iblk1
  rw [View.read_apply]
  show V c main_v57 _ = V c main_v57 _
  congr 1
  funext a
  apply Fin.ext
  match a with
  | ⟨0, _⟩ => show win1_0.index t (0 : Fin 2) * 5000 + 1 * (x 0).val = (i 0).val; rw [e0, h0]; omega
  | ⟨1, _⟩ => show win1_0.index t (1 : Fin 2) * 64 + 1 * (x 1).val = (i 1).val; rw [e1, h1]; omega

/-- The weight block at every point is the whole weight matrix. -/
theorem weights1_apply (c : Dev nD) (t : Fin cfg1.N) (x : S64x64.Idx) :
    (iblk1 V c 1 t : Vec Ideal S64x64 .f32) x = (V c main_arg3 : S64x64.Idx → Elt Ideal .f32) x := by
  obtain ⟨-, -, e0, e1, -⟩ := block_index1 t
  unfold iblk1
  rw [View.read_apply]
  show V c main_arg3 _ = V c main_arg3 _
  congr 1
  funext a
  apply Fin.ext
  match a with
  | ⟨0, _⟩ => show win1_1.index t (0 : Fin 2) * 64 + 1 * (x 0).val = (x 0).val; rw [e0]; omega
  | ⟨1, _⟩ => show win1_1.index t (1 : Fin 2) * 64 + 1 * (x 1).val = (x 1).val; rw [e1]; omega

/-- The bias block at every point is the whole bias row. -/
theorem bias1_apply (c : Dev nD) (t : Fin cfg1.N) (x : S1x64.Idx) :
    (iblk1 V c 2 t : Vec Ideal S1x64 .f32) x = (V c main_v58 : S1x64.Idx → Elt Ideal .f32) x := by
  obtain ⟨-, -, -, -, e0, e1, -⟩ := block_index1 t
  unfold iblk1
  rw [View.read_apply]
  show V c main_v58 _ = V c main_v58 _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 64 + 1 * (x 1).val = (x 1).val; rw [e1]; omega

/-- The block's arithmetic on blocks that are rows 5000 s … of A, all of W and all of b is the dense step of A, W, b
    at the entry of the array where the block's entry sits. -/
theorem dense_block1 (x0 : Vec Ideal S5000x64 .f32) (x1 : Vec Ideal S64x64 .f32) (x2 : Vec Ideal S1x64 .f32)
    (A : Cert.Spec.A2 100000 64) (W : Cert.Spec.A2 64 64) (b : Cert.Spec.A2 1 64) (s : Nat)
    (h0 : ∀ (x : S5000x64.Idx) (i : S100000x64.Idx), (i 0).val = 5000 * s + (x 0).val → (i 1).val = (x 1).val → x0 x = A i)
    (h1 : ∀ x : S64x64.Idx, x1 x = W x) (h2 : ∀ x : S1x64.Idx, x2 x = b x)
    (y : S5000x64.Idx) (i : S100000x64.Idx) (hi0 : (i 0).val = 5000 * s + (y 0).val) (hi1 : (i 1).val = (y 1).val) :
    k1_pay1 (F := Ideal) x0 x1 x2 y = Cert.Spec.dense (K := 64) A W b i := by
  obtain ⟨p, q, rfl⟩ : ∃ (p : Fin 5000) (q : Fin 64), y = ix2 p q := ⟨y 0, y 1, eq_ix2 y⟩
  have hp : (i 0).val = 5000 * s + p.val := hi0
  have hq : (i 1).val = q.val := hi1
  have hcol : Cert.Spec.col i = q := Fin.ext hq
  rw [pay1_apply]
  unfold Cert.Spec.dense Cert.Spec.matProd
  rw [hcol, h2]
  congr 2
  refine Finset.sum_congr rfl fun k _ => ?_
  rw [h0 (ix2 p k) (ix2 (Cert.Spec.row i) k) hp rfl, h1]

/-- What point t writes back is block t of the dense step of the arrays the region finds. -/
theorem flushed1_eq (c : Dev nD) (t : Fin cfg1.N) :
    (dat1 (F := Ideal) V c).flushed 3 t
      = ((cfg1.win 3).blk t).view.read (Elt Ideal) (Cert.Spec.dense (K := 64) (V c main_v57) (V c main_arg3) (V c main_v58)) := by
  show (cfg1.win 3).cut (grid1.coords t) ((dat1 V c).after 3 t) = _
  rw [after1_3]
  unfold out1_3
  rw [View.canon_unit_zero offsets_zero1]
  simp only [View.ld_unit_zero (S := S5000x64) offsets_zero1, View.ld_unit_zero (S := S64x64) offsets_zero1,
    View.ld_unit_zero (S := S1x64) offsets_zero1]
  obtain ⟨-, -, -, -, -, -, e0, e1⟩ := block_index1 t
  funext j
  refine dense_block1 (iblk1 V c 0 t) (iblk1 V c 1 t) (iblk1 V c 2 t) _ _ _ t.val
    (rows1_apply V c t) (weights1_apply V c t) (bias1_apply V c t)
    ((cfg1.win 3).xinj (grid1.coords t) j) (((cfg1.win 3).blk t).view.emb j) ?_ ?_
  · show win1_3.index t (0 : Fin 2) * 5000 + 1 * (j 0).val = 5000 * t.val + (j 0).val
    rw [e0]; omega
  · show win1_3.index t (1 : Fin 2) * 64 + 1 * (j 1).val = (j 1).val
    rw [e1]; omega

/-- An index of the output array is in point t's block iff each coordinate is in the block's range on its axis. -/
theorem mem_blk1 (t : Fin cfg1.N) (i : S100000x64.Idx) :
    i ∈ ((cfg1.win 3).blk t).view.set
      ↔ ∀ a : Fin 2, win1_3.index t a * S5000x64.size a ≤ (i a).val ∧ (i a).val < win1_3.index t a * S5000x64.size a + S5000x64.size a := by
  show i ∈ ((View.whole main_v59).slice (win1_3.rect t)).set ↔ _
  rw [View.set_slice_whole, Rect.mem_set_unit]
  exact Iff.rfl

/-- Every entry of the output array is written back by some point: row r by point r / 5000. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, e0, e1⟩ := block_index1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    rw [e0, ht]; omega
  | ⟨1, _⟩ =>
    show win1_3.index t (1 : Fin 2) * 64 ≤ (i 1).val ∧ (i 1).val < win1_3.index t (1 : Fin 2) * 64 + 64
    rw [e1]; omega

end Blocks

/-- What region 1 leaves in its output array, at the ideal values, from the arrays `V` it finds: `Spec.dense` of the
    aggregated rows (window 0), the weights (window 1) and the bias row (window 2). -/
theorem region1_value (V : (c : Dev nD) → (b : Ref sig .tc) → Buf (Elt Ideal) ((c : Thread nD τ).loc b)) (c : Dev nD) :
    (dat1 (F := Ideal) V c).arrAt 3 cfg1.N
      = Cert.Spec.dense (K := 64) (V c main_v57) (V c main_arg3) (V c main_v58) :=
  (dat1 (F := Ideal) V c).arrAt_eq_of_cover 3 _ (fun t _ => flushed1_eq V c t) cover1

end Cert.KernelIdeal.RegionValue

end
-- ==== Proof.KRegion2.lean ====
/-
  The pooling region of the kernel, as a value: one hundred grid points over one output block that never moves. Point 0
  stores zeros and adds its tile's product; every later point adds its tile's product to what the point before left;
  the block is written back after the last point. A tile's product is the one-hot matrix of its 1000 graph words
  (word = column number) transposed, times its 1000 rows: entry (g, q) is Σ_r [b r = g] · h (r, q). Addition of
  extended reals is associative and commutative, so after the last point the block holds the sum over all tiles.
-/
import proofs.«416046_j74466142978136_1_alg».proof.Proof.Gen.KernelIdeal.Frame
import proofs.«416046_j74466142978136_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The tile product: the payload read at an entry -/

/-- The contracted axis of the left operand (axis 0) reads the contraction position. -/
theorem lhs2_0 (i : S512x64.Idx) (q : dot_S1000x512_S1000x64_S512x64_0_0_1_1_n_n.contr.Idx) :
    (dot_S1000x512_S1000x64_S512x64_0_0_1_1_n_n.lhsIdx i q 0).val = (q ⟨0, by decide⟩).val :=
  dot_S1000x512_S1000x64_S512x64_0_0_1_1_n_n.lhsIdx_val_of_single rfl i q
/-- The kept axis of the left operand (axis 1) reads the result's row. -/
theorem lhs2_1 (i : S512x64.Idx) (q : dot_S1000x512_S1000x64_S512x64_0_0_1_1_n_n.contr.Idx) :
    (dot_S1000x512_S1000x64_S512x64_0_0_1_1_n_n.lhsIdx i q 1).val = (i 0).val := by
  unfold DotDims.lhsIdx
  rw [dif_neg (show ¬(1 : Fin S1000x512.rank) ∈ dot_S1000x512_S1000x64_S512x64_0_0_1_1_n_n.lhsBatch by decide), dif_pos (show (1 : Fin S1000x512.rank) ∈ dot_S1000x512_S1000x64_S512x64_0_0_1_1_n_n.lhsNonContracting by decide)]
  rfl
/-- The contracted axis of the right operand (axis 0) reads the contraction position. -/
theorem rhs2_0 (i : S512x64.Idx) (q : dot_S1000x512_S1000x64_S512x64_0_0_1_1_n_n.contr.Idx) :
    (dot_S1000x512_S1000x64_S512x64_0_0_1_1_n_n.rhsIdx i q 0).val = (q ⟨0, by decide⟩).val :=
  dot_S1000x512_S1000x64_S512x64_0_0_1_1_n_n.rhsIdx_val_of_single rfl i q
/-- The kept axis of the right operand (axis 1) reads the result's column. -/
theorem rhs2_1 (i : S512x64.Idx) (q : dot_S1000x512_S1000x64_S512x64_0_0_1_1_n_n.contr.Idx) :
    (dot_S1000x512_S1000x64_S512x64_0_0_1_1_n_n.rhsIdx i q 1).val = (i 1).val := by
  unfold DotDims.rhsIdx
  rw [dif_neg (show ¬(1 : Fin S1000x64.rank) ∈ dot_S1000x512_S1000x64_S512x64_0_0_1_1_n_n.rhsBatch by decide), dif_pos (show (1 : Fin S1000x64.rank) ∈ dot_S1000x512_S1000x64_S512x64_0_0_1_1_n_n.rhsNonContracting by decide)]
  rfl

/-- The product contracting the rows of both operands, into the zero accumulator, at entry (g, q): Σ_r l (r, g) · r (r, q). -/
theorem tdot_apply (l : FVec Ideal S1000x512 .bf16) (r : FVec Ideal S1000x64 .bf16) (g : Fin 512) (q : Fin 64) :
    FloatOps.matmul dot_S1000x512_S1000x64_S512x64_0_0_1_1_n_n none l r (constant (F := Ideal) S512x64 .f32 0x00000000#32) (ix2 g q)
      = ∑ k : Fin 1000, l (ix2 k g) * r (ix2 k q) := by
  rw [Ideal.matmul_constant_zero_apply, ← Equiv.sum_comp (ValueIdx.contrEquiv1 dot_S1000x512_S1000x64_S512x64_0_0_1_1_n_n 1000 rfl rfl).symm]
  refine Finset.sum_congr rfl fun k _ => ?_
  have hk := ValueIdx.contrEquiv1_symm_val dot_S1000x512_S1000x64_S512x64_0_0_1_1_n_n 1000 rfl rfl k
  have el : dot_S1000x512_S1000x64_S512x64_0_0_1_1_n_n.lhsIdx (ix2 g q) ((ValueIdx.contrEquiv1 dot_S1000x512_S1000x64_S512x64_0_0_1_1_n_n 1000 rfl rfl).symm k) = ix2 k g := funext fun a => Fin.ext (by
    match a with
    | ⟨0, _⟩ => exact (lhs2_0 _ _).trans hk
    | ⟨1, _⟩ => exact lhs2_1 _ _)
  have er : dot_S1000x512_S1000x64_S512x64_0_0_1_1_n_n.rhsIdx (ix2 g q) ((ValueIdx.contrEquiv1 dot_S1000x512_S1000x64_S512x64_0_0_1_1_n_n 1000 rfl rfl).symm k) = ix2 k q := funext fun a => Fin.ext (by
    match a with
    | ⟨0, _⟩ => exact (rhs2_0 _ _).trans hk
    | ⟨1, _⟩ => exact rhs2_1 _ _)
  rw [el, er]

/-- A one-bit word widened to 32 bits and read as a signed integer: 1 for the set bit, 0 for the clear one. -/
theorem onebit_val (x : BitVec 1) : (((x.setWidth 32).toInt : ℝ) : EReal) = if x = 1#1 then (1 : EReal) else 0 := by
  have h : x = 0#1 ∨ x = 1#1 := by
    have := x.isLt
    rcases (show x.toNat = 0 ∨ x.toNat = 1 by omega) with h | h
    · exact Or.inl (BitVec.eq_of_toNat_eq h)
    · exact Or.inr (BitVec.eq_of_toNat_eq h)
  rcases h with rfl | rfl
  · rw [if_neg (by decide)]; simp
  · rw [if_pos rfl]; simp

/-- The equality comparison of two words sets its bit exactly when the words are equal. -/
theorem cmpi_eq_iff (x y : BitVec 32) : IntOp.cmpi .eq x y = 1#1 ↔ x = y := by
  show BitVec.ofBool (x == y) = 1#1 ↔ x = y
  by_cases h : x = y
  · rw [h, beq_self_eq_true]; exact ⟨fun _ => rfl, fun _ => rfl⟩
  · rw [beq_false_of_ne h]; exact ⟨fun h' => absurd h' (by decide), fun h' => absurd h' h⟩

/-- The one-hot entry: row r's graph word against column number g. -/
theorem onehot_apply (b : Vec Ideal S1000x1 .i32) (r : Fin 1000) (g : Fin 512) :
    (truncf (F := Ideal) .bf16 (sitofp (F := Ideal) .f32 (extui 32 (cmpi .eq
        (broadcastTo S1000x512 (shapeCast S1000x1 b shapeCasts_S1000x1_S1000x1) broadcasts_S1000x1_S1000x512)
        (iota .tc S1000x512 32 [1] iota_S1000x512_d1_w32)) natLt_1_32)) bitsLt_bf16_f32 : FVec Ideal S1000x512 .bf16) (ix2 r g)
      = if b (ix2 r 0) = BitVec.ofNat 32 g.val then (1 : EReal) else 0 := by
  show ((((IntOp.cmpi .eq
      (broadcastTo S1000x512 (shapeCast S1000x1 b shapeCasts_S1000x1_S1000x1) broadcasts_S1000x1_S1000x512 (ix2 r g))
      (iota .tc S1000x512 32 [1] iota_S1000x512_d1_w32 (ix2 r g))).setWidth 32).toInt : ℝ) : EReal) = _
  rw [onebit_val, shapeCast_self]
  have e1 : broadcastTo S1000x512 b broadcasts_S1000x1_S1000x512 (ix2 r g) = b (ix2 r 0) :=
    broadcastTo_apply b broadcasts_S1000x1_S1000x512 (ix2 r g) (ix2 r 0) (fun a => by
      match a with
      | ⟨0, _⟩ => show r.val = if (1000 : Nat) = 1 then 0 else r.val; rw [if_neg (by decide)]
      | ⟨1, _⟩ => show (0 : Nat) = if (1 : Nat) = 1 then 0 else g.val; rw [if_pos rfl])
  have e2 : iota .tc S1000x512 32 [1] iota_S1000x512_d1_w32 (ix2 r g) = BitVec.ofNat 32 g.val := by
    show BitVec.ofNat 32 (0 * 512 + g.val) = _
    rw [Nat.zero_mul, Nat.zero_add]
  rw [e1, e2]
  by_cases hxy : b (ix2 r 0) = BitVec.ofNat 32 g.val
  · rw [if_pos hxy, if_pos ((cmpi_eq_iff _ _).mpr hxy)]
  · rw [if_neg hxy, if_neg (fun h' => hxy ((cmpi_eq_iff _ _).mp h'))]

/-- THE TILE PRODUCT. The update's payload at entry (g, q): what the block held there plus Σ_r [b r = g] · h (r, q). -/
theorem pay2_apply (b : Vec Ideal S1000x1 .i32) (h : Vec Ideal S1000x64 .f32) (acc : Vec Ideal S512x64 .f32) (g : Fin 512) (q : Fin 64) :
    k2_pay2 (F := Ideal) b h acc (ix2 g q)
      = acc (ix2 g q) + ∑ r : Fin 1000, (if b (ix2 r 0) = BitVec.ofNat 32 g.val then (1 : EReal) else 0) * h (ix2 r q) := by
  unfold k2_pay2
  show shapeCast S512x64 acc shapeCasts_S512x64_S512x64 (ix2 g q) + FloatOps.matmul dot_S1000x512_S1000x64_S512x64_0_0_1_1_n_n none _ _ (constant (F := Ideal) S512x64 .f32 0x00000000#32) (ix2 g q) = _
  refine (congrArg₂ (· + ·) (congrFun (shapeCast_self acc shapeCasts_S512x64_S512x64) (ix2 g q)) (tdot_apply _ _ g q)).trans ?_
  refine congrArg (acc (ix2 g q) + ·) (Finset.sum_congr rfl fun r _ => ?_)
  refine congrArg₂ (· * ·) (onehot_apply b r g) ?_
  show shapeCast S1000x64 h shapeCasts_S1000x64_S1000x64 (ix2 r q) = _
  exact congrFun (shapeCast_self h shapeCasts_S1000x64_S1000x64) (ix2 r q)

/-! ## What each case leaves in the block -/

section AnyValues
variable {F : FTy → Type} [FloatOps F]

theorem hz : (![0, 0] : Fin 2 → Nat) = fun _ => 0 := funext fun a => by fin_cases a <;> rfl

/-- A LATER POINT: the block holding `xo` is left at the update of `xo` by the tile's graph words `x1` and rows `x0`. -/
theorem out_B (c : Dev nD) (i : grid2.Coords) (a1 : Memref sig .tc .vmem S1000x64 .f32) (h1 : a1.IsWhole)
    (a2 : Memref sig .tc .vmem S1000x1 .i32) (h2 : a2.IsWhole) (a3 : Memref sig .tc .vmem S512x64 .f32) (h3 : a3.IsWhole)
    (hc : ¬cond2_0 i) (x0 : Vec F S1000x64 .f32) (x1 : Vec F S1000x1 .i32) (xo : Vec F S512x64 .f32) :
    out2_B_2 c i a1 h1 a2 h2 a3 h3 hc x0 x1 xo = k2_pay2 x1 x0 xo := by
  unfold out2_B_2
  rw [View.read_writes_eq_canon _ _ _ (cover2_B_2 c i a1 h1 a2 h2 a3 h3 hc x0 x1 xo)]
  unfold kernelRun2_B
  dsimp only
  sl_unfold_words
  rw [View.canon_unit_zero (S := S512x64) hz]
  simp only [View.readAt_eq_ld, h1.read_unread, h2.read_unread, h3.read_unread, View.ld_unit_zero (S := S1000x1) hz,
    View.ld_unit_zero (S := S1000x64) hz, View.ld_unit_zero (S := S512x64) hz]

/-- THE FIRST POINT: the block is reset to zeros, then updated by the tile's graph words `x1` and rows `x0`. -/
theorem out_A (c : Dev nD) (i : grid2.Coords) (a1 : Memref sig .tc .vmem S1000x64 .f32) (h1 : a1.IsWhole)
    (a2 : Memref sig .tc .vmem S1000x1 .i32) (h2 : a2.IsWhole) (a3 : Memref sig .tc .vmem S512x64 .f32) (h3 : a3.IsWhole)
    (hc : cond2_0 i) (x0 : Vec F S1000x64 .f32) (x1 : Vec F S1000x1 .i32) :
    out2_A_2 c i a1 h1 a2 h2 a3 h3 hc x0 x1 = k2_pay2 x1 x0 k2_pay1 := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S512x64) hz, View.readCov_unit_zero (S := S512x64) _ hz]
  simp only [View.readAt_eq_ld, h1.read_unread, h2.read_unread, View.ld_unit_zero (S := S1000x1) hz,
    View.ld_unit_zero (S := S1000x64) hz]

end AnyValues

/-! ## The blocks, the arrays, and the running sum -/

section Pool
variable (V : (c : Dev nD) → (b : Ref sig .tc) → Buf (Elt Ideal) ((c : Thread nD τ).loc b))

/-- The tile's rows and its graph words at point `t`, and the two arrays they are read from, by their literal types. -/
abbrev hblk (c : Dev nD) (t : Fin cfg2.N) : Vec Ideal S1000x64 .f32 := iblk2 V c 0 t
abbrev bblk (c : Dev nD) (t : Fin cfg2.N) : Vec Ideal S1000x1 .i32 := iblk2 V c 1 t
abbrev harr (c : Dev nD) : Vec Ideal S100000x64 .f32 := V c main_v59
abbrev barr (c : Dev nD) : Vec Ideal S100000x1 .i32 := V c main_v60

/-- Tile `t`'s product at entry (g, q): Σ_r [b r = g] · h (r, q) over the tile's 1000 rows. -/
def tile (c : Dev nD) (t : Fin cfg2.N) (g : Fin 512) (q : Fin 64) : EReal :=
  ∑ r : Fin 1000, (if bblk V c t (ix2 r 0) = BitVec.ofNat 32 g.val then (1 : EReal) else 0) * hblk V c t (ix2 r q)

/-- THE RUNNING SUM. After point `n` the block holds, at entry (g, q), the sum of the products of tiles 0 … n:
    by induction on the point (the first point starts from zeros, each later one adds its tile's product). -/
theorem outsAt_eq (c : Dev nD) (g : Fin 512) (q : Fin 64) : ∀ (n : ℕ) (h : n < cfg2.N),
    outsAt2 V c n h (ix2 g q) = ∑ t : Fin (n + 1), tile V c ⟨t.val, lt_of_lt_of_le t.isLt h⟩ g q
  | 0, h => by
    refine (congrFun (outsAt2_A V c ⟨0, h⟩ rfl) (ix2 g q)).trans ?_
    refine (congrFun (out_A (F := Ideal) c (grid2.coords ⟨0, h⟩) (ms2_0 ⟨0, h⟩) (hs2_0 ⟨0, h⟩) (ms2_1 ⟨0, h⟩) (hs2_1 ⟨0, h⟩)
      (ms2_2 ⟨0, h⟩) (hs2_2 ⟨0, h⟩) ((hcond2_0 ⟨0, h⟩).mpr rfl) (iblk2 V c 0 ⟨0, h⟩) (iblk2 V c 1 ⟨0, h⟩)) (ix2 g q)).trans ?_
    refine (pay2_apply (bblk V c ⟨0, h⟩) (hblk V c ⟨0, h⟩) (k2_pay1 (F := Ideal)) g q).trans ?_
    show Ideal.ofBits .f32 0x00000000#32 + tile V c ⟨0, h⟩ g q = _
    rw [Ideal.ofBits_zero_f32, zero_add, Fin.sum_univ_one]
    rfl
  | n + 1, h => by
    have hN : cfg2.N = 100 := N_2
    have hB : ¬(⟨n + 1, h⟩ : Fin cfg2.N).val % 100 = 0 := by dsimp only; omega
    refine (congrFun (outsAt2_B V c ⟨n + 1, h⟩ hB) (ix2 g q)).trans ?_
    refine (congrFun (out_B (F := Ideal) c (grid2.coords ⟨n + 1, h⟩) (ms2_0 ⟨n + 1, h⟩) (hs2_0 ⟨n + 1, h⟩) (ms2_1 ⟨n + 1, h⟩) (hs2_1 ⟨n + 1, h⟩)
      (ms2_2 ⟨n + 1, h⟩) (hs2_2 ⟨n + 1, h⟩) (fun h' => hB ((hcond2_0 ⟨n + 1, h⟩).mp h')) (iblk2 V c 0 ⟨n + 1, h⟩) (iblk2 V c 1 ⟨n + 1, h⟩)
      (outsAt2 V c n (Nat.lt_of_succ_lt h))) (ix2 g q)).trans ?_
    refine (pay2_apply (bblk V c ⟨n + 1, h⟩) (hblk V c ⟨n + 1, h⟩) (outsAt2 V c n (Nat.lt_of_succ_lt h)) g q).trans ?_
    show outsAt2 V c n (Nat.lt_of_succ_lt h) (ix2 g q) + tile V c ⟨n + 1, h⟩ g q = _
    rw [outsAt_eq c g q n (Nat.lt_of_succ_lt h)]
    exact (Fin.sum_univ_castSucc (fun t : Fin (n + 1 + 1) => tile V c ⟨t.val, lt_of_lt_of_le t.isLt h⟩ g q)).symm

end Pool

/-! ## The tiles are the rows 1000 t … 1000 t + 999 of the arrays -/

section Read
variable (V : (c : Dev nD) → (b : Ref sig .tc) → Buf (Elt Ideal) ((c : Thread nD τ).loc b))

/-- The two input windows' block indices along the grid: point `t` reads block (t, 0). -/
theorem idx2_0 : ∀ t : Fin cfg2.N, win2_0.index t 0 = t.val ∧ win2_0.index t 1 = 0 :=
  (by decide +kernel : ∀ t : Fin grid2.N, win2_0.index t 0 = t.val ∧ win2_0.index t 1 = 0)
theorem idx2_1 : ∀ t : Fin cfg2.N, win2_1.index t 0 = t.val ∧ win2_1.index t 1 = 0 :=
  (by decide +kernel : ∀ t : Fin grid2.N, win2_1.index t 0 = t.val ∧ win2_1.index t 1 = 0)

/-- Tile `t`'s row r is row 1000 t + r of the node rows; -/
theorem hblk_apply (c : Dev nD) (t : Fin cfg2.N) (ht : t.val < 100) (r : Fin 1000) (q : Fin 64) :
    hblk V c t (ix2 r q) = harr V c (ix2 (Cert.Spec.tileRow ⟨t.val, ht⟩ r) q) := by
  have hi := idx2_0 t
  show ((cfg2.win 0).blk t).view.read (Elt Ideal) (V c (Pipeline.arrRef spec2 0)) (ix2 r q) = _
  rw [View.read_apply]
  show V c main_v59 _ = V c main_v59 _
  congr 1
  funext a
  apply Fin.ext
  match a with
  | ⟨0, _⟩ => show win2_0.index t 0 * 1000 + 1 * r.val = 1000 * t.val + r.val; rw [hi.1]; omega
  | ⟨1, _⟩ => show win2_0.index t 1 * 64 + 1 * q.val = q.val; rw [hi.2]; omega

/-- and its graph word r is word 1000 t + r of the column of graph words. -/
theorem bblk_apply (c : Dev nD) (t : Fin cfg2.N) (ht : t.val < 100) (r : Fin 1000) :
    bblk V c t (ix2 r 0) = barr V c (ix2 (Cert.Spec.tileRow ⟨t.val, ht⟩ r) 0) := by
  have hi := idx2_1 t
  show ((cfg2.win 1).blk t).view.read (Elt Ideal) (V c (Pipeline.arrRef spec2 1)) (ix2 r 0) = _
  rw [View.read_apply]
  show V c main_v60 _ = V c main_v60 _
  congr 1
  funext a
  apply Fin.ext
  match a with
  | ⟨0, _⟩ => show win2_1.index t 0 * 1000 + 1 * r.val = 1000 * t.val + r.val; rw [hi.1]; omega
  | ⟨1, _⟩ => show win2_1.index t 1 * 1 + 1 * 0 = 0; rw [hi.2]

/-- So after the last point the block holds the pooled rows. -/
theorem pooled_apply (c : Dev nD) (h99 : 99 < cfg2.N) (g : Fin 512) (q : Fin 64) :
    outsAt2 V c 99 h99 (ix2 g q) = Cert.Spec.poolK (V c main_v59) (V c main_v60) (ix2 g q) := by
  rw [outsAt_eq V c g q 99 h99]
  show ∑ t : Fin 100, tile V c ⟨t.val, lt_of_lt_of_le t.isLt h99⟩ g q = ∑ t : Fin 100, ∑ r : Fin 1000, _
  refine Finset.sum_congr rfl fun t _ => ?_
  unfold tile
  refine Finset.sum_congr rfl fun r _ => ?_
  rw [hblk_apply V c ⟨t.val, lt_of_lt_of_le t.isLt h99⟩ t.isLt r q, bblk_apply V c ⟨t.val, lt_of_lt_of_le t.isLt h99⟩ t.isLt r]

end Read

/-! ## The write-back after the last point, and the output array -/

section Final
variable (V : (c : Dev nD) → (b : Ref sig .tc) → Buf (Elt Ideal) ((c : Thread nD τ).loc b))

/-- The last point, the only one after which the block is written back. -/
abbrev t99 : Fin cfg2.N := ⟨99, by rw [show cfg2.N = 100 from N_2]; decide⟩

/-- The one write-back writes the pooled rows: block (0, 0) of the [512, 64] array, read through zero offsets, is the array. -/
theorem flushed_eq (c : Dev nD) (t : Fin cfg2.N) (hf : (cfg2.win 2).flush t = true) :
    (dat2 V c).flushed 2 t = ((cfg2.win 2).blk t).view.read (Elt Ideal) (Cert.Spec.poolK (V c main_v59) (V c main_v60)) := by
  have hN : cfg2.N = 100 := N_2
  have h99 : t.val = 99 := by have := (flush2_2 t).mp hf; have := t.isLt; omega
  obtain rfl : t = t99 := Fin.ext h99
  show (cfg2.win 2).cut (grid2.coords t99) ((dat2 V c).after 2 t99) = _
  rw [after2_2]
  have hz' : (fun a => win2_2.index t99 a * main_v61.ty.shape.size a) = fun _ => 0 := funext fun a => by fin_cases a <;> decide
  refine Eq.trans ?_ (Memref.read_access_unit_zero (Elt Ideal) main_v61 hz' (fun a => by rw [congrFun hz' a]; simp)
    (Cert.Spec.poolK (V c main_v59) (V c main_v60))).symm
  funext j
  obtain ⟨g, q, rfl⟩ : ∃ g q, j = ix2 g q := ⟨j 0, j 1, eq_ix2 j⟩
  exact pooled_apply V c t99.isLt g q

end Final

/-- What region 2 leaves in its output array, at the ideal values, from the arrays `V` it finds: `Spec.poolK` of the
    node rows (window 0) and the column of graph words (window 1). -/
theorem region2_value (V : (c : Dev nD) → (b : Ref sig .tc) → Buf (Elt Ideal) ((c : Thread nD τ).loc b)) (c : Dev nD) :
    (dat2 (F := Ideal) V c).arrAt 2 cfg2.N
      = Cert.Spec.poolK (V c main_v59) (V c main_v60) :=
  (dat2 V c).arrAt_eq_of_cover 2 (Cert.Spec.poolK (V c main_v59) (V c main_v60)) (flushed_eq V c) fun i =>
    ⟨t99, (flush2_2 t99).mpr rfl, by
      show i ∈ ((View.whole main_v61).slice (win2_2.rect t99)).set
      rw [View.set_slice_whole, Rect.mem_set_unit]
      intro a
      have h0 : (i 0 : Nat) < 512 := (i 0).isLt
      have h1 : (i 1 : Nat) < 64 := (i 1).isLt
      match a with
      | ⟨0, _⟩ => show win2_2.index t99 0 * win2_2.size 0 ≤ (i 0 : Nat) ∧ (i 0 : Nat) < win2_2.index t99 0 * win2_2.size 0 + win2_2.xsize (grid2.coords t99) 0
                  rw [show win2_2.index t99 0 * win2_2.size 0 = 0 from by decide +kernel, show win2_2.xsize (grid2.coords t99) 0 = 512 from by decide +kernel]; omega
      | ⟨1, _⟩ => show win2_2.index t99 1 * win2_2.size 1 ≤ (i 1 : Nat) ∧ (i 1 : Nat) < win2_2.index t99 1 * win2_2.size 1 + win2_2.xsize (grid2.coords t99) 1
                  rw [show win2_2.index t99 1 * win2_2.size 1 = 0 from by decide +kernel, show win2_2.xsize (grid2.coords t99) 1 = 64 from by decide +kernel]; omega⟩

end Cert.KernelIdeal.RegionValue

end
-- ==== Proof.KChain.lean ====
/-
  The kernel's result as a function of its argument arrays, at the ideal values.

  Between the launch and the return the kernel's @main is: host operations that build the edge lists (the edge
  index's two rows, each followed by the self loops), the degree of every node, its inverse square root where the
  degree is positive, the edge weights, and the aggregation of the input rows along the edges; the first dense region;
  host operations that aggregate its rows along the same edges with the same weights; the second dense region; the
  pooling region; and host operations that count the nodes of each graph and divide. Read back through the contents
  at every boundary, the result array ends at the quotient of the pooled second layer by the clipped counts. The edge
  lists, the weights and the divisor are the reference's own terms of the same arguments.
-/
import proofs.«416046_j74466142978136_1_alg».proof.Proof.Gen.KernelIdeal.Frame
import proofs.«416046_j74466142978136_1_alg».proof.Proof.RefRead
import proofs.«416046_j74466142978136_1_alg».proof.Proof.Spec
import proofs.«416046_j74466142978136_1_alg».proof.Proof.Agg
import proofs.«416046_j74466142978136_1_alg».proof.Proof.KRegion0
import proofs.«416046_j74466142978136_1_alg».proof.Proof.KRegion1
import proofs.«416046_j74466142978136_1_alg».proof.Proof.KRegion2
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.ValueIdx

/-- Closes a goal "after ops U b = U b" for a literal host stretch and a literal reference that none of its
    operations writes: such a buffer keeps its contents. -/
local macro "host_pass " h:ident : tactic =>
  `(tactic| (refine StableHlo.after_of_forall_not_mem _ _ (List.forall_iff_forall_mem.mp ?_)
             simp only [$h:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## Each host stretch, from arbitrary contents U at its start

Each holds from any starting contents. Where a stretch computes a term the reference also computes, the result is
stated as the reference's own stage function of the edge index. -/

section Stretch

open Cert.ReferenceIdeal.Read

variable (U : Valuation τ sig (Elt Ideal))

/-! ### The first stretch: the edge lists, the degrees, their inverse square roots -/

set_option maxHeartbeats 2000000 in
/-- The source list: the edge index's first row, then the self loops. -/
theorem ops0_v3 : StableHlo.after hostOps0 U (Proc.devRef .tc main_v3)
    = val_main_v3 (F := Ideal) (U (Proc.devRef .tc main_arg5)) := by
  after_results
  rfl

set_option maxHeartbeats 2000000 in
/-- The destination list: the edge index's second row, then the self loops. -/
theorem ops0_v6 : StableHlo.after hostOps0 U (Proc.devRef .tc main_v6)
    = val_main_v6 (F := Ideal) (U (Proc.devRef .tc main_arg5)) := by
  after_results
  rfl

set_option maxHeartbeats 2000000 in
/-- Where the degree (the number of edges ending at a node) is positive. -/
theorem ops0_v12 : StableHlo.after hostOps0 U (Proc.devRef .tc main_v12)
    = val_main_v12 (F := Ideal) (U (Proc.devRef .tc main_arg5)) := by
  after_results
  rfl

set_option maxHeartbeats 2000000 in
/-- The inverse square root of the degree. -/
theorem ops0_v13 : StableHlo.after hostOps0 U (Proc.devRef .tc main_v13)
    = val_main_v13 (F := Ideal) (U (Proc.devRef .tc main_arg5)) := by
  after_results
  rfl

set_option maxHeartbeats 2000000 in
/-- The scalar zero the selection falls back to. -/
theorem ops0_cst_2 : StableHlo.after hostOps0 U (Proc.devRef .tc main_cst_2) = val_main_cst_2 (F := Ideal) := by
  after_results
  rfl

/-! ### The second stretch: the inverse square root where the degree is positive, zero elsewhere -/

theorem ops0_1_v14 (x5 : (⟨S2x1000000, .i32⟩ : BufTy).Contents (Elt Ideal))
    (h12 : U (Proc.devRef .tc main_v12) = val_main_v12 (F := Ideal) x5)
    (h13 : U (Proc.devRef .tc main_v13) = val_main_v13 (F := Ideal) x5)
    (hc : U (Proc.devRef .tc main_cst_2) = val_main_cst_2 (F := Ideal)) :
    StableHlo.after hostOps0_1 U (Proc.devRef .tc main_v14) = val_main_v14 (F := Ideal) x5 := by
  have h : StableHlo.after hostOps0_1 U (Proc.devRef .tc main_v14)
      = select (U (Proc.devRef .tc main_v12)) (U (Proc.devRef .tc main_v13))
          (broadcastInDim S100000 ![] bcast_S_S100000 (id (U (Proc.devRef .tc main_cst_2)))) := by
    after_results
    rfl
  rw [h, h12, h13, hc]
  rfl

/-! ### The third stretch: the edge weights, the first aggregation, the first bias as a row -/

/-- The edge weights: the product of the two end nodes' normalisations, each read at the edge's index wrapped into
    the table. -/
theorem ops0_2_v29 (x5 : (⟨S2x1000000, .i32⟩ : BufTy).Contents (Elt Ideal))
    (h3 : U (Proc.devRef .tc main_v3) = val_main_v3 (F := Ideal) x5)
    (h6 : U (Proc.devRef .tc main_v6) = val_main_v6 (F := Ideal) x5)
    (h14 : U (Proc.devRef .tc main_v14) = val_main_v14 (F := Ideal) x5) :
    StableHlo.after hostOps0_2 U (Proc.devRef .tc main_v29) = val_main_v29 (F := Ideal) x5 := by
  after_results_simp
  rw [h3, h6, h14]
  rfl

/-- The first message-passing step: gather the source rows of the input, scale each by its edge's weight, scatter-add
    along the destinations into zeros. The source column, the destination column and the weights are the reference's. -/
theorem ops0_2_v42 (x5 : (⟨S2x1000000, .i32⟩ : BufTy).Contents (Elt Ideal))
    (h3 : U (Proc.devRef .tc main_v3) = val_main_v3 (F := Ideal) x5)
    (h6 : U (Proc.devRef .tc main_v6) = val_main_v6 (F := Ideal) x5)
    (h14 : U (Proc.devRef .tc main_v14) = val_main_v14 (F := Ideal) x5) :
    StableHlo.after hostOps0_2 U (Proc.devRef .tc main_v42)
      = Host.scatterAdd (F := Ideal) scatter_S100000x3_S1100000x1_S1100000x3_1_0_0_1
          (broadcastInDim S100000x3 ![] bcast_S_S100000x3 (constant (F := Ideal) S_ .f32 0x00000000#32))
          (val_main_v42 (F := Ideal) x5)
          (mulf (Host.gather gather_S100000x3_S1100000x1_S1100000x3_1_0_n_n_0_1_13 (U (Proc.devRef .tc main_arg0))
              (val_main_v36 (F := Ideal) x5))
            (broadcastInDim S1100000x3 ![0, 1] bcast_S1100000x1_S1100000x3_0_1
              (broadcastInDim S1100000x1 ![0] bcast_S1100000_S1100000x1_0 (val_main_v29 (F := Ideal) x5)))) := by
  after_results_simp
  rw [h3, h6, h14]
  rfl

/-- The first bias, as a 1 × 64 row. -/
theorem ops0_2_v43 : StableHlo.after hostOps0_2 U (Proc.devRef .tc main_v43)
    = shapeCast S1x64 (U (Proc.devRef .tc main_arg2)) shapeCasts_S64_S1x64 := by
  after_results_simp
  rfl

/-! ### The fourth stretch: the second aggregation, the second bias as a row -/

/-- The second message-passing step, on the first layer's rows: the same edges, the same weights. -/
theorem ops1_v57 (x5 : (⟨S2x1000000, .i32⟩ : BufTy).Contents (Elt Ideal))
    (h3 : U (Proc.devRef .tc main_v3) = val_main_v3 (F := Ideal) x5)
    (h6 : U (Proc.devRef .tc main_v6) = val_main_v6 (F := Ideal) x5)
    (h29 : U (Proc.devRef .tc main_v29) = val_main_v29 (F := Ideal) x5) :
    StableHlo.after hostOps1 U (Proc.devRef .tc main_v57)
      = Host.scatterAdd (F := Ideal) scatter_S100000x64_S1100000x1_S1100000x64_1_0_0_1
          (broadcastInDim S100000x64 ![] bcast_S_S100000x64 (constant (F := Ideal) S_ .f32 0x00000000#32))
          (val_main_v42 (F := Ideal) x5)
          (mulf (Host.gather gather_S100000x64_S1100000x1_S1100000x64_1_0_n_n_0_1_164 (U (Proc.devRef .tc main_v44))
              (val_main_v36 (F := Ideal) x5))
            (broadcastInDim S1100000x64 ![0, 1] bcast_S1100000x1_S1100000x64_0_1
              (broadcastInDim S1100000x1 ![0] bcast_S1100000_S1100000x1_0 (val_main_v29 (F := Ideal) x5)))) := by
  after_results_simp
  rw [h3, h6, h29]
  rfl

/-- The second bias, as a 1 × 64 row. -/
theorem ops1_v58 : StableHlo.after hostOps1 U (Proc.devRef .tc main_v58)
    = shapeCast S1x64 (U (Proc.devRef .tc main_arg4)) shapeCasts_S64_S1x64 := by
  after_results_simp
  rfl

/-! ### The fifth stretch: the graph ids as a column -/

theorem ops2_v60 : StableHlo.after hostOps2 U (Proc.devRef .tc main_v60)
    = shapeCast S100000x1 (U (Proc.devRef .tc main_arg6)) shapeCasts_S100000_S100000x1 := by
  after_results
  rfl

/-! ### The last stretch: the node counts, clipped below at 1, and the division -/

theorem ops3_v70 : StableHlo.after hostOps3 U (Proc.devRef .tc main_v70)
    = Host.divf (F := Ideal) (φ := .f32) (U (Proc.devRef .tc main_v61))
        (val_main_v76 (F := Ideal) (U (Proc.devRef .tc main_arg6))) := by
  after_results
  rfl

end Stretch

/-! ## The contents at each boundary, read back to the launch -/

section Boundaries

open Cert.ReferenceIdeal.Read Cert.KernelIdeal.RegionValue

/-- The dense step and the pooling respect equality of their arguments. -/
theorem dense_congr {K : ℕ} {A A' : Cert.Spec.A2 Cert.Spec.NN K} {W W' : Cert.Spec.A2 K 64} {b b' : Cert.Spec.A2 1 64}
    (hA : A = A') (hW : W = W') (hb : b = b') : Cert.Spec.dense A W b = Cert.Spec.dense A' W' b' := by
  rw [hA, hW, hb]

theorem poolK_congr {h h' : Cert.Spec.A2 Cert.Spec.NN 64} {g g' : Cert.Spec.I2 Cert.Spec.NN 1}
    (hh : h = h') (hg : g = g') : Cert.Spec.poolK h g = Cert.Spec.poolK h' g' := by
  rw [hh, hg]

variable (m : (ℓ : Loc nD τ sig) → Buf (Elt Ideal) ℓ) (ρ : Dev nD → PrngReg) (c : Dev nD)

/- Short names, local to this section: the launch contents of an argument; the source column, the destination column
   and the edge weights (the reference's terms of the edge index); the first and the second layer's rows. -/
set_option quotPrecheck false in
local notation "𝔪⟨" k "⟩" => m ((c : Thread nD τ).loc k)
set_option quotPrecheck false in
local notation "𝐬" => val_main_v36 (F := Ideal) 𝔪⟨main_arg5⟩
set_option quotPrecheck false in
local notation "𝐝" => val_main_v42 (F := Ideal) 𝔪⟨main_arg5⟩
set_option quotPrecheck false in
local notation "𝐰" => val_main_v29 (F := Ideal) 𝔪⟨main_arg5⟩
set_option quotPrecheck false in
local notation "𝐡₁" => Cert.Spec.dense (K := 3) (Cert.Spec.agg 𝐬 𝐝 𝐰 𝔪⟨main_arg0⟩) 𝔪⟨main_arg1⟩
  (shapeCast S1x64 𝔪⟨main_arg2⟩ shapeCasts_S64_S1x64)
set_option quotPrecheck false in
local notation "𝐡₂" => Cert.Spec.dense (K := 64) (Cert.Spec.agg 𝐬 𝐝 𝐰 𝐡₁) 𝔪⟨main_arg3⟩
  (shapeCast S1x64 𝔪⟨main_arg4⟩ shapeCasts_S64_S1x64)

/-! ### The arguments

No host operation writes an argument, and a region leaves alone every buffer that is not one of its arrays: read at a
boundary, an argument's buffer holds the launch contents. Each is followed back only as far as it is read. -/

theorem W2_arg0 : W2 m ρ c (Proc.devRef .tc main_arg0) = 𝔪⟨main_arg0⟩ :=
  calc W2 m ρ c (Proc.devRef .tc main_arg0)
    _ = W1 m ρ c (Proc.devRef .tc main_arg0) := by host_pass hostOps0_1
    _ = W0 m ρ c (Proc.devRef .tc main_arg0) := by host_pass hostOps0
    _ = 𝔪⟨main_arg0⟩ := rfl

theorem W2_arg2 : W2 m ρ c (Proc.devRef .tc main_arg2) = 𝔪⟨main_arg2⟩ :=
  calc W2 m ρ c (Proc.devRef .tc main_arg2)
    _ = W1 m ρ c (Proc.devRef .tc main_arg2) := by host_pass hostOps0_1
    _ = W0 m ρ c (Proc.devRef .tc main_arg2) := by host_pass hostOps0
    _ = 𝔪⟨main_arg2⟩ := rfl

theorem W3_arg1 : W3 m ρ c (Proc.devRef .tc main_arg1) = 𝔪⟨main_arg1⟩ :=
  calc W3 m ρ c (Proc.devRef .tc main_arg1)
    _ = W2 m ρ c (Proc.devRef .tc main_arg1) := by host_pass hostOps0_2
    _ = W1 m ρ c (Proc.devRef .tc main_arg1) := by host_pass hostOps0_1
    _ = W0 m ρ c (Proc.devRef .tc main_arg1) := by host_pass hostOps0
    _ = 𝔪⟨main_arg1⟩ := rfl

theorem W4_arg4 : W4 m ρ c (Proc.devRef .tc main_arg4) = 𝔪⟨main_arg4⟩ :=
  calc W4 m ρ c (Proc.devRef .tc main_arg4)
    _ = W3 m ρ c (Proc.devRef .tc main_arg4) := W4_of_ne m ρ c main_arg4 (by decide)
    _ = W2 m ρ c (Proc.devRef .tc main_arg4) := by host_pass hostOps0_2
    _ = W1 m ρ c (Proc.devRef .tc main_arg4) := by host_pass hostOps0_1
    _ = W0 m ρ c (Proc.devRef .tc main_arg4) := by host_pass hostOps0
    _ = 𝔪⟨main_arg4⟩ := rfl

theorem W5_arg3 : W5 m ρ c (Proc.devRef .tc main_arg3) = 𝔪⟨main_arg3⟩ :=
  calc W5 m ρ c (Proc.devRef .tc main_arg3)
    _ = W4 m ρ c (Proc.devRef .tc main_arg3) := by host_pass hostOps1
    _ = W3 m ρ c (Proc.devRef .tc main_arg3) := W4_of_ne m ρ c main_arg3 (by decide)
    _ = W2 m ρ c (Proc.devRef .tc main_arg3) := by host_pass hostOps0_2
    _ = W1 m ρ c (Proc.devRef .tc main_arg3) := by host_pass hostOps0_1
    _ = W0 m ρ c (Proc.devRef .tc main_arg3) := by host_pass hostOps0
    _ = 𝔪⟨main_arg3⟩ := rfl

theorem W6_arg6 : W6 m ρ c (Proc.devRef .tc main_arg6) = 𝔪⟨main_arg6⟩ :=
  calc W6 m ρ c (Proc.devRef .tc main_arg6)
    _ = W5 m ρ c (Proc.devRef .tc main_arg6) := W6_of_ne m ρ c main_arg6 (by decide)
    _ = W4 m ρ c (Proc.devRef .tc main_arg6) := by host_pass hostOps1
    _ = W3 m ρ c (Proc.devRef .tc main_arg6) := W4_of_ne m ρ c main_arg6 (by decide)
    _ = W2 m ρ c (Proc.devRef .tc main_arg6) := by host_pass hostOps0_2
    _ = W1 m ρ c (Proc.devRef .tc main_arg6) := by host_pass hostOps0_1
    _ = W0 m ρ c (Proc.devRef .tc main_arg6) := by host_pass hostOps0
    _ = 𝔪⟨main_arg6⟩ := rfl

theorem W8_arg6 : W8 m ρ c (Proc.devRef .tc main_arg6) = 𝔪⟨main_arg6⟩ :=
  calc W8 m ρ c (Proc.devRef .tc main_arg6)
    _ = W7 m ρ c (Proc.devRef .tc main_arg6) := W8_of_ne m ρ c main_arg6 (by decide)
    _ = W6 m ρ c (Proc.devRef .tc main_arg6) := by host_pass hostOps2
    _ = 𝔪⟨main_arg6⟩ := W6_arg6 m ρ c

/-! ### The edge lists, the normalisation and the edge weights

Computed once, before the first region, and read again by the stretch after it: the reference's terms of the edge
index at every boundary where they are read. -/

theorem W2_v3 : W2 m ρ c (Proc.devRef .tc main_v3) = val_main_v3 (F := Ideal) 𝔪⟨main_arg5⟩ :=
  calc W2 m ρ c (Proc.devRef .tc main_v3)
    _ = W1 m ρ c (Proc.devRef .tc main_v3) := by host_pass hostOps0_1
    _ = val_main_v3 (F := Ideal) 𝔪⟨main_arg5⟩ := ops0_v3 (W0 m ρ c)

theorem W2_v6 : W2 m ρ c (Proc.devRef .tc main_v6) = val_main_v6 (F := Ideal) 𝔪⟨main_arg5⟩ :=
  calc W2 m ρ c (Proc.devRef .tc main_v6)
    _ = W1 m ρ c (Proc.devRef .tc main_v6) := by host_pass hostOps0_1
    _ = val_main_v6 (F := Ideal) 𝔪⟨main_arg5⟩ := ops0_v6 (W0 m ρ c)

theorem W2_v14 : W2 m ρ c (Proc.devRef .tc main_v14) = val_main_v14 (F := Ideal) 𝔪⟨main_arg5⟩ :=
  ops0_1_v14 (W1 m ρ c) 𝔪⟨main_arg5⟩ (ops0_v12 (W0 m ρ c)) (ops0_v13 (W0 m ρ c)) (ops0_cst_2 (W0 m ρ c))

theorem W3_v29 : W3 m ρ c (Proc.devRef .tc main_v29) = 𝐰 :=
  ops0_2_v29 (W2 m ρ c) 𝔪⟨main_arg5⟩ (W2_v3 m ρ c) (W2_v6 m ρ c) (W2_v14 m ρ c)

theorem W4_v3 : W4 m ρ c (Proc.devRef .tc main_v3) = val_main_v3 (F := Ideal) 𝔪⟨main_arg5⟩ :=
  calc W4 m ρ c (Proc.devRef .tc main_v3)
    _ = W3 m ρ c (Proc.devRef .tc main_v3) := W4_of_ne m ρ c main_v3 (by decide)
    _ = W2 m ρ c (Proc.devRef .tc main_v3) := by host_pass hostOps0_2
    _ = val_main_v3 (F := Ideal) 𝔪⟨main_arg5⟩ := W2_v3 m ρ c

theorem W4_v6 : W4 m ρ c (Proc.devRef .tc main_v6) = val_main_v6 (F := Ideal) 𝔪⟨main_arg5⟩ :=
  calc W4 m ρ c (Proc.devRef .tc main_v6)
    _ = W3 m ρ c (Proc.devRef .tc main_v6) := W4_of_ne m ρ c main_v6 (by decide)
    _ = W2 m ρ c (Proc.devRef .tc main_v6) := by host_pass hostOps0_2
    _ = val_main_v6 (F := Ideal) 𝔪⟨main_arg5⟩ := W2_v6 m ρ c

theorem W4_v29 : W4 m ρ c (Proc.devRef .tc main_v29) = 𝐰 :=
  calc W4 m ρ c (Proc.devRef .tc main_v29)
    _ = W3 m ρ c (Proc.devRef .tc main_v29) := W4_of_ne m ρ c main_v29 (by decide)
    _ = 𝐰 := W3_v29 m ρ c

/-! ### The first layer -/

/-- The first aggregation: the host's gather, scale, scatter-add is the aggregation of the input rows. -/
theorem W3_v42 : W3 m ρ c (Proc.devRef .tc main_v42) = Cert.Spec.agg 𝐬 𝐝 𝐰 𝔪⟨main_arg0⟩ :=
  ((ops0_2_v42 (W2 m ρ c) 𝔪⟨main_arg5⟩ (W2_v3 m ρ c) (W2_v6 m ρ c) (W2_v14 m ρ c)).trans
    (Cert.Agg.mp_eq_agg (C := 3) (by decide) (by decide) gather_S100000x3_S1100000x1_S1100000x3_1_0_n_n_0_1_13 rfl
      scatter_S100000x3_S1100000x1_S1100000x3_1_0_0_1 rfl bcast_S_S100000x3 bcast_S1100000_S1100000x1_0
      bcast_S1100000x1_S1100000x3_0_1 (W2 m ρ c (Proc.devRef .tc main_arg0)) 𝐬 𝐝 𝐰)).trans
    (congrArg (Cert.Spec.agg 𝐬 𝐝 𝐰) (W2_arg0 m ρ c))

theorem W3_v43 : W3 m ρ c (Proc.devRef .tc main_v43) = shapeCast S1x64 𝔪⟨main_arg2⟩ shapeCasts_S64_S1x64 :=
  (ops0_2_v43 (W2 m ρ c)).trans (congrArg (fun x => shapeCast S1x64 x shapeCasts_S64_S1x64) (W2_arg2 m ρ c))

/-- The first region's output array: the dense step on the aggregated input. -/
theorem W4_v44 : W4 m ρ c (Proc.devRef .tc main_v44) = 𝐡₁ :=
  ((W4_arr m ρ c 3).trans (region0_value (V3 m ρ) c)).trans
    (dense_congr (W3_v42 m ρ c) (W3_arg1 m ρ c) (W3_v43 m ρ c))

/-! ### The second layer -/

/-- The second aggregation, of the first layer's rows, along the same edges with the same weights. -/
theorem W5_v57 : W5 m ρ c (Proc.devRef .tc main_v57) = Cert.Spec.agg 𝐬 𝐝 𝐰 𝐡₁ :=
  ((ops1_v57 (W4 m ρ c) 𝔪⟨main_arg5⟩ (W4_v3 m ρ c) (W4_v6 m ρ c) (W4_v29 m ρ c)).trans
    (Cert.Agg.mp_eq_agg (C := 64) (by decide) (by decide) gather_S100000x64_S1100000x1_S1100000x64_1_0_n_n_0_1_164 rfl
      scatter_S100000x64_S1100000x1_S1100000x64_1_0_0_1 rfl bcast_S_S100000x64 bcast_S1100000_S1100000x1_0
      bcast_S1100000x1_S1100000x64_0_1 (W4 m ρ c (Proc.devRef .tc main_v44)) 𝐬 𝐝 𝐰)).trans
    (congrArg (Cert.Spec.agg 𝐬 𝐝 𝐰) (W4_v44 m ρ c))

theorem W5_v58 : W5 m ρ c (Proc.devRef .tc main_v58) = shapeCast S1x64 𝔪⟨main_arg4⟩ shapeCasts_S64_S1x64 :=
  (ops1_v58 (W4 m ρ c)).trans (congrArg (fun x => shapeCast S1x64 x shapeCasts_S64_S1x64) (W4_arg4 m ρ c))

/-- The second region's output array: the dense step on the aggregated first layer. -/
theorem W6_v59 : W6 m ρ c (Proc.devRef .tc main_v59) = 𝐡₂ :=
  ((W6_arr m ρ c 3).trans (region1_value (V5 m ρ) c)).trans
    (dense_congr (W5_v57 m ρ c) (W5_arg3 m ρ c) (W5_v58 m ρ c))

/-! ### The pooling -/

theorem W7_v59 : W7 m ρ c (Proc.devRef .tc main_v59) = 𝐡₂ :=
  calc W7 m ρ c (Proc.devRef .tc main_v59)
    _ = W6 m ρ c (Proc.devRef .tc main_v59) := by host_pass hostOps2
    _ = 𝐡₂ := W6_v59 m ρ c

theorem W7_v60 : W7 m ρ c (Proc.devRef .tc main_v60) = shapeCast S100000x1 𝔪⟨main_arg6⟩ shapeCasts_S100000_S100000x1 :=
  (ops2_v60 (W6 m ρ c)).trans
    (congrArg (fun x => shapeCast S100000x1 x shapeCasts_S100000_S100000x1) (W6_arg6 m ρ c))

/-- The pooling region's output array: the second layer's rows added graph by graph. -/
theorem W8_v61 : W8 m ρ c (Proc.devRef .tc main_v61)
    = Cert.Spec.poolK 𝐡₂ (shapeCast S100000x1 𝔪⟨main_arg6⟩ shapeCasts_S100000_S100000x1) :=
  ((W8_arr m ρ c 2).trans (region2_value (V7 m ρ) c)).trans (poolK_congr (W7_v59 m ρ c) (W7_v60 m ρ c))

end Boundaries

variable (m : (ℓ : Loc nD τ sig) → Buf (Elt Ideal) ℓ) (ρ : Dev nD → PrngReg)

/-- The kernel's result array at the return (the last boundary's contents at the result buffer): the pooled second
    layer over the clipped node counts, every piece a function of the launch contents of the seven arguments. -/
theorem kernel_value (c : Dev nD) :
    W9 (F := Ideal) m ρ c (Proc.devRef .tc main_v70)
      = Host.divf (F := Ideal) (φ := .f32)
          (Cert.Spec.poolK
            (Cert.Spec.layerK (Cert.ReferenceIdeal.Read.val_main_v36 (F := Ideal) (m ((c : Thread nD τ).loc main_arg5)))
              (Cert.ReferenceIdeal.Read.val_main_v42 (F := Ideal) (m ((c : Thread nD τ).loc main_arg5)))
              (Cert.ReferenceIdeal.Read.val_main_v29 (F := Ideal) (m ((c : Thread nD τ).loc main_arg5)))
              (Cert.Spec.layerK (Cert.ReferenceIdeal.Read.val_main_v36 (F := Ideal) (m ((c : Thread nD τ).loc main_arg5)))
                (Cert.ReferenceIdeal.Read.val_main_v42 (F := Ideal) (m ((c : Thread nD τ).loc main_arg5)))
                (Cert.ReferenceIdeal.Read.val_main_v29 (F := Ideal) (m ((c : Thread nD τ).loc main_arg5)))
                (m ((c : Thread nD τ).loc main_arg0)) (m ((c : Thread nD τ).loc main_arg1))
                (shapeCast S1x64 (m ((c : Thread nD τ).loc main_arg2)) shapeCasts_S64_S1x64))
              (m ((c : Thread nD τ).loc main_arg3))
              (shapeCast S1x64 (m ((c : Thread nD τ).loc main_arg4)) shapeCasts_S64_S1x64))
            (shapeCast S100000x1 (m ((c : Thread nD τ).loc main_arg6)) shapeCasts_S100000_S100000x1))
          (Cert.ReferenceIdeal.Read.val_main_v76 (F := Ideal) (m ((c : Thread nD τ).loc main_arg6))) := by
  unfold Cert.Spec.layerK
  exact (ops3_v70 (W8 m ρ c)).trans
    (congrArg₂ (Host.divf (F := Ideal) (φ := .f32)) (W8_v61 m ρ c)
      (congrArg (Cert.ReferenceIdeal.Read.val_main_v76 (F := Ideal)) (W8_arg6 m ρ c)))

end Cert.KernelIdeal.HostValue

end
-- ==== Proof.Algebra.lean ====
/-
  The laws that join the two programs, over the extended reals.

  Aggregation along the edges is linear in the rows, so it commutes with a product by a weight matrix on the
  right: for real entries, Σ_k (Σ_e H(s e, k) · n e) · W(k, q) = Σ_e (Σ_k H(s e, k) · W(k, q)) · n e. On the extended
  reals this needs every entry to be a real number (distributivity fails at the infinities), and sums and products
  of real numbers, and a maximum with 0, are again real. Pooling needs no finiteness: a product with a one-hot
  row is the sum of the selected rows (0 · x = 0 and 1 · x = x for every extended real x), and 100 tiles of 1000
  rows are the 100000 rows.
-/
import proofs.«416046_j74466142978136_1_alg».proof.Proof.Spec

noncomputable section

namespace Cert.Algebra

open Idealize.ShloMosaic Idealize.ShloMosaic.ValueIdx Cert.Spec

theorem isReal_zero : IsReal 0 := ⟨0, EReal.coe_zero.symm⟩
theorem isReal_one : IsReal 1 := ⟨1, EReal.coe_one.symm⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.max {x y : EReal} (hx : IsReal x) (hy : IsReal y) : IsReal (max x y) := by
  obtain ⟨a, rfl⟩ := hx
  obtain ⟨b, rfl⟩ := hy
  exact ⟨Max.max a b, (EReal.coe_strictMono.monotone.map_max).symm⟩
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact IsReal.add (h a (Finset.mem_insert_self a s)) (ih fun i hi => h i (Finset.mem_insert_of_mem hi))

/-- The coercion of the reals into the extended reals carries a finite sum to the sum of the coercions. -/
private theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- An aggregation of real rows with real weights is real. -/
theorem agg_real {C : ℕ} (si di : I2 NE 1) (nrm : A1 NE) (H : A2 NN C)
    (hn : ∀ e, IsReal (nrm e)) (hH : ∀ i, IsReal (H i)) : ∀ j, IsReal (agg si di nrm H j) := by
  intro j
  unfold agg
  exact isReal_sum _ _ fun e _ => IsReal.mul (hH _) (hn _)

/-- A matrix product of real factors is real. -/
private theorem matProd_real {K : ℕ} (H : A2 NN K) (W : A2 K 64)
    (hH : ∀ i, IsReal (H i)) (hW : ∀ i, IsReal (W i)) : ∀ j, IsReal (matProd H W j) := by
  intro j
  unfold matProd
  exact isReal_sum _ _ fun k _ => IsReal.mul (hH _) (hW _)

/-- A reference layer of real inputs is real. -/
theorem layerR_real {K : ℕ} (si di : I2 NE 1) (nrm : A1 NE) (H : A2 NN K) (W : A2 K 64) (b : A1 64)
    (hn : ∀ e, IsReal (nrm e)) (hH : ∀ i, IsReal (H i)) (hW : ∀ i, IsReal (W i)) (hb : ∀ i, IsReal (b i)) :
    ∀ j, IsReal (layerR si di nrm H W b j) := by
  intro j
  unfold layerR
  exact IsReal.max (IsReal.add (agg_real si di nrm (matProd H W) hn (matProd_real H W hH hW) _) (hb _)) isReal_zero

/-- The heart of the law of a layer, entry by entry: for real entries the double sum over the contraction index k
    and the edges e may be taken in either order, and the edge's weight moves past the weight matrix's entry. -/
private theorem matProd_agg {K : ℕ} (si di : I2 NE 1) (nrm : A1 NE) (H : A2 NN K) (W : A2 K 64)
    (hn : ∀ e, IsReal (nrm e)) (hH : ∀ i, IsReal (H i)) (hW : ∀ i, IsReal (W i))
    (j : (⟨2, ![NN, 64]⟩ : Shape).Idx) :
    matProd (agg si di nrm H) W j = agg si di nrm (matProd H W) j := by
  choose n' hn' using hn
  choose H' hH' using hH
  choose W' hW' using hW
  obtain ⟨a, q, rfl⟩ : ∃ a q, j = ix2 a q := ⟨_, _, eq_ix2 j⟩
  show ∑ k : Fin K, (∑ e ∈ Finset.univ.filter (fun e : Fin NE => (di (ix2 e (0 : Fin 1))).toInt = (a.val : ℤ)),
        H (ix2 (srcRow si e) k) * nrm (ix1 e)) * W (ix2 k q)
      = ∑ e ∈ Finset.univ.filter (fun e : Fin NE => (di (ix2 e (0 : Fin 1))).toInt = (a.val : ℤ)),
        (∑ k : Fin K, H (ix2 (srcRow si e) k) * W (ix2 k q)) * nrm (ix1 e)
  simp only [hH', hW', hn', ← EReal.coe_mul, ← coe_sum]
  rw [EReal.coe_eq_coe_iff]
  simp only [Finset.sum_mul]
  rw [Finset.sum_comm]
  exact Finset.sum_congr rfl fun e _ => Finset.sum_congr rfl fun k _ => by ring

/-- THE LAW OF A LAYER: aggregate-then-multiply is multiply-then-aggregate, for real rows, weights and edge
    weights; the kernel's bias row `br` (a 1 × 64 array) holds the reference's bias vector `b`. -/
theorem layer_eq {K : ℕ} (si di : I2 NE 1) (nrm : A1 NE) (H : A2 NN K) (W : A2 K 64) (b : A1 64) (br : A2 1 64)
    (hbr : ∀ q : Fin 64, br (ix2 (0 : Fin 1) q) = b (ix1 q))
    (hn : ∀ e, IsReal (nrm e)) (hH : ∀ i, IsReal (H i)) (hW : ∀ i, IsReal (W i)) :
    layerK si di nrm H W br = layerR si di nrm H W b := by
  funext j
  show Max.max (matProd (agg si di nrm H) W j + br (ix2 (0 : Fin 1) (col j))) 0
      = Max.max (agg si di nrm (matProd H W) j + b (ix1 (col j))) 0
  rw [hbr, matProd_agg si di nrm H W hn hH hW j]

/-- The 100 tiles of 1000 rows are the 100000 rows: (t, r) ↦ 1000 · t + r is a bijection, with inverse
    i ↦ (i / 1000, i % 1000). -/
private def tileEquiv : Fin 100 × Fin 1000 ≃ Fin NN where
  toFun p := tileRow p.1 p.2
  invFun i := (⟨i.val / 1000, by have : i.val < 100000 := i.isLt; omega⟩, ⟨i.val % 1000, Nat.mod_lt _ (by norm_num)⟩)
  left_inv := by
    rintro ⟨t, r⟩
    have := t.isLt
    have := r.isLt
    refine Prod.ext (Fin.ext ?_) (Fin.ext ?_)
    · show (1000 * t.val + r.val) / 1000 = t.val
      omega
    · show (1000 * t.val + r.val) % 1000 = r.val
      omega
  right_inv := by
    intro i
    refine Fin.ext ?_
    show 1000 * (i.val / 1000) + i.val % 1000 = i.val
    omega

/-- So a sum tile by tile, row by row, is the sum over all the rows. -/
private theorem sum_tiles (F : Fin NN → EReal) :
    ∑ t : Fin 100, ∑ r : Fin 1000, F (tileRow t r) = ∑ i : Fin NN, F i := by
  rw [← Fintype.sum_prod_type' (f := fun t r => F (tileRow t r))]
  exact Equiv.sum_comp tileEquiv F

/-- A 32-bit word is the word of a number g below 512 exactly when, read signed, it is g. -/
private theorem word_eq_iff (w : BitVec 32) (g : ℕ) (hg : g < 512) :
    w = BitVec.ofNat 32 g ↔ w.toInt = (g : ℤ) := by
  have hw : w.toNat < 4294967296 := w.isLt
  rw [BitVec.toInt_eq_toNat_cond]
  constructor
  · rintro rfl
    rw [BitVec.toNat_ofNat, Nat.mod_eq_of_lt (by omega)]
    split <;> omega
  · intro h
    apply BitVec.eq_of_toNat_eq
    rw [BitVec.toNat_ofNat, Nat.mod_eq_of_lt (by omega)]
    split at h <;> omega

/-- THE LAW OF POOLING: the tile-by-tile one-hot products are the sum of the rows of each graph, for graph-id
    columns that hold the same words. No finiteness is needed. -/
theorem pool_eq (h : A2 NN 64) (bK bR : I2 NN 1) (hb : ∀ r : Fin NN, bK (ix2 r (0 : Fin 1)) = bR (ix2 r (0 : Fin 1))) :
    poolK h bK = poolR h bR := by
  funext j
  obtain ⟨g, q, rfl⟩ : ∃ g q, j = ix2 g q := ⟨_, _, eq_ix2 j⟩
  have hg : g.val < 512 := g.isLt
  show ∑ t : Fin 100, ∑ r : Fin 1000,
        (if bK (ix2 (tileRow t r) (0 : Fin 1)) = BitVec.ofNat 32 g.val then (1 : EReal) else 0) * h (ix2 (tileRow t r) q)
      = ∑ r ∈ Finset.univ.filter (fun r : Fin NN => (bR (ix2 r (0 : Fin 1))).toInt = (g.val : ℤ)), h (ix2 r q)
  rw [sum_tiles (fun i => (if bK (ix2 i (0 : Fin 1)) = BitVec.ofNat 32 g.val then (1 : EReal) else 0) * h (ix2 i q)),
    Finset.sum_filter]
  refine Finset.sum_congr rfl fun i _ => ?_
  rw [hb i]
  by_cases hc : bR (ix2 i (0 : Fin 1)) = BitVec.ofNat 32 g.val
  · rw [if_pos hc, if_pos ((word_eq_iff _ _ hg).1 hc), one_mul]
  · rw [if_neg hc, if_neg (fun h' => hc ((word_eq_iff _ _ hg).2 h')), zero_mul]

end Cert.Algebra

end
-- ==== Proof.RefValue.lean ====
/-
  The reference's result as a function of its argument arrays, at the ideal values.

  The reference is two graph-convolution layers — a product by the weight matrix, the rows gathered along the edges'
  sources, scaled by the edge weights and scatter-added along the edges' destinations, plus the bias, clipped at 0 —,
  then the rows of each graph scatter-added, divided by the graph's clipped node count.
-/
import proofs.«416046_j74466142978136_1_alg».proof.Proof.RefRead
import proofs.«416046_j74466142978136_1_alg».proof.Proof.Spec
import proofs.«416046_j74466142978136_1_alg».proof.Proof.Agg
import proofs.«416046_j74466142978136_1_alg».proof.Proof.Algebra
import proofs.«416046_j74466142978136_1_alg».proof.Proof.LibRowScatter

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

/-! ## The products by the weight matrices -/

/-- The first layer's product by its weight matrix is the plain matrix product. -/
theorem v30_eq (x0 : (⟨S100000x3, .f32⟩ : BufTy).Contents (Elt Ideal)) (x1 : (⟨S3x64, .f32⟩ : BufTy).Contents (Elt Ideal)) :
    val_main_v30 (F := Ideal) x0 x1 = Cert.Spec.matProd x0 x1 := by
  funext j
  rw [val_main_v30_apply]
  unfold Cert.Spec.matProd
  refine Finset.sum_congr rfl fun k _ => ?_
  have el : lidx_main_v30 j k = ix2 (Cert.Spec.row j) k := funext fun a => Fin.ext (by
    match a with
    | ⟨0, _⟩ => rfl
    | ⟨1, _⟩ => rfl)
  have er : ridx_main_v30 j k = ix2 k (Cert.Spec.col j) := funext fun a => Fin.ext (by
    match a with
    | ⟨0, _⟩ => rfl
    | ⟨1, _⟩ => rfl)
  rw [el, er]

/-- The second layer's product by its weight matrix is the plain matrix product of the first layer's result. -/
theorem v48_eq (x0 : (⟨S100000x3, .f32⟩ : BufTy).Contents (Elt Ideal)) (x1 : (⟨S3x64, .f32⟩ : BufTy).Contents (Elt Ideal)) (x2 : (⟨S64, .f32⟩ : BufTy).Contents (Elt Ideal)) (x3 : (⟨S64x64, .f32⟩ : BufTy).Contents (Elt Ideal)) (x5 : (⟨S2x1000000, .i32⟩ : BufTy).Contents (Elt Ideal)) :
    val_main_v48 (F := Ideal) x0 x1 x2 x3 x5 = Cert.Spec.matProd (val_main_v47 (F := Ideal) x0 x1 x2 x5) x3 := by
  funext j
  rw [val_main_v48_apply]
  unfold Cert.Spec.matProd
  refine Finset.sum_congr rfl fun k _ => ?_
  have el : lidx_main_v48 j k = ix2 (Cert.Spec.row j) k := funext fun a => Fin.ext (by
    match a with
    | ⟨0, _⟩ => rfl
    | ⟨1, _⟩ => rfl)
  have er : ridx_main_v48 j k = ix2 k (Cert.Spec.col j) := funext fun a => Fin.ext (by
    match a with
    | ⟨0, _⟩ => rfl
    | ⟨1, _⟩ => rfl)
  rw [el, er]

/-! ## One layer after its product: aggregate along the edges, add the bias, clip at 0 -/

/-- The bias vector broadcast to a row and then to every row, read at an entry: the bias at the entry's column. -/
theorem bias_apply (b : (⟨S64, .f32⟩ : BufTy).Contents (Elt Ideal)) (j : S100000x64.Idx) :
    broadcastInDim S100000x64 ![0, 1] Facts₀.bcast_S1x64_S100000x64_0_1 (broadcastInDim S1x64 ![1] Facts₀.bcast_S64_S1x64_1 b) j
      = b (ix1 (Cert.Spec.col j)) := by
  refine (val_main_v45_apply (F := Ideal) b j).trans ((val_main_v44_apply (F := Ideal) b _).trans ?_)
  refine congrArg b (funext fun a => Fin.ext ?_)
  match a with
  | ⟨0, _⟩ => rfl

/-- The zero array of a layer's shape reads 0. -/
theorem zero_apply (j : S100000x64.Idx) :
    broadcastInDim S100000x64 ![] Facts₀.bcast_S_S100000x64 (constant (F := Ideal) S_ .f32 0x00000000#32) j = (0 : EReal) :=
  (val_main_call1_v0_apply (F := Ideal) j).trans ((val_main_call1_cst_apply (F := Ideal) _).trans Ideal.ofBits_zero_f32)

/-- A LAYER AFTER ITS PRODUCT. The rows of `H` gathered along the sources `si`, scaled by the edge weights `nrm`,
    scatter-added into the zero array along the destinations `di`, plus the bias `b`, clipped at 0: entry by entry
    the maximum with 0 of the aggregation plus the bias at the entry's column. -/
theorem layer_stage (H : (⟨S100000x64, .f32⟩ : BufTy).Contents (Elt Ideal)) (si di : (⟨S1100000x1, .i32⟩ : BufTy).Contents (Elt Ideal)) (nrm : (⟨S1100000, .f32⟩ : BufTy).Contents (Elt Ideal)) (b : (⟨S64, .f32⟩ : BufTy).Contents (Elt Ideal)) :
    maximumf
        (addf
          (Host.scatterAdd (F := Ideal) scatter_S100000x64_S1100000x1_S1100000x64_1_0_0_1
            (broadcastInDim S100000x64 ![] Facts₀.bcast_S_S100000x64 (constant (F := Ideal) S_ .f32 0x00000000#32)) di
            (mulf (Host.gather gather_S100000x64_S1100000x1_S1100000x64_1_0_n_n_0_1_164 H si)
              (broadcastInDim S1100000x64 ![0, 1] Facts₀.bcast_S1100000x1_S1100000x64_0_1
                (broadcastInDim S1100000x1 ![0] Facts₀.bcast_S1100000_S1100000x1_0 nrm))))
          (broadcastInDim S100000x64 ![0, 1] Facts₀.bcast_S1x64_S100000x64_0_1 (broadcastInDim S1x64 ![1] Facts₀.bcast_S64_S1x64_1 b)))
        (broadcastInDim S100000x64 ![] Facts₀.bcast_S_S100000x64 (constant (F := Ideal) S_ .f32 0x00000000#32))
      = fun j => max (Cert.Spec.agg si di nrm H j + b (ix1 (Cert.Spec.col j))) 0 := by
  have hagg := Cert.Agg.mp_eq_agg (C := 64) Facts₀.gather_S100000x64_S1100000x1_S1100000x64_1_0_n_n_0_1_164_wf
    Facts₀.scatter_S100000x64_S1100000x1_S1100000x64_1_0_0_1_wf
    gather_S100000x64_S1100000x1_S1100000x64_1_0_n_n_0_1_164 rfl scatter_S100000x64_S1100000x1_S1100000x64_1_0_0_1 rfl
    Facts₀.bcast_S_S100000x64 Facts₀.bcast_S1100000_S1100000x1_0 Facts₀.bcast_S1100000x1_S1100000x64_0_1 H si di nrm
  funext j
  rw [maximumf_apply, addf_apply, hagg, bias_apply, zero_apply]

/-- The second layer reads the edges' sources through the same operations as the first: the same column. -/
theorem v54_eq (x5 : (⟨S2x1000000, .i32⟩ : BufTy).Contents (Elt Ideal)) : val_main_v54 (F := Ideal) x5 = val_main_v36 (F := Ideal) x5 := rfl

/-- The second layer reads the edges' destinations through the same operation as the first: the same column. -/
theorem v60_eq (x5 : (⟨S2x1000000, .i32⟩ : BufTy).Contents (Elt Ideal)) : val_main_v60 (F := Ideal) x5 = val_main_v42 (F := Ideal) x5 := rfl

/-- THE FIRST LAYER is `Spec.layerR` of the node features. -/
theorem v47_eq (x0 : (⟨S100000x3, .f32⟩ : BufTy).Contents (Elt Ideal)) (x1 : (⟨S3x64, .f32⟩ : BufTy).Contents (Elt Ideal)) (x2 : (⟨S64, .f32⟩ : BufTy).Contents (Elt Ideal)) (x5 : (⟨S2x1000000, .i32⟩ : BufTy).Contents (Elt Ideal)) :
    val_main_v47 (F := Ideal) x0 x1 x2 x5
      = Cert.Spec.layerR (val_main_v36 (F := Ideal) x5) (val_main_v42 (F := Ideal) x5) (val_main_v29 (F := Ideal) x5) x0 x1 x2 := by
  have h := layer_stage (val_main_v30 (F := Ideal) x0 x1) (val_main_v36 (F := Ideal) x5) (val_main_v42 (F := Ideal) x5)
    (val_main_v29 (F := Ideal) x5) x2
  refine h.trans ?_
  rw [v30_eq]
  rfl

/-- THE SECOND LAYER is `Spec.layerR` of the first layer's result. -/
theorem v65_eq (x0 : (⟨S100000x3, .f32⟩ : BufTy).Contents (Elt Ideal)) (x1 : (⟨S3x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S2x1000000, .i32⟩ : BufTy).Contents (Elt Ideal)) :
    val_main_v65 (F := Ideal) x0 x1 x2 x3 x4 x5
      = Cert.Spec.layerR (val_main_v36 (F := Ideal) x5) (val_main_v42 (F := Ideal) x5) (val_main_v29 (F := Ideal) x5)
          (val_main_v47 (F := Ideal) x0 x1 x2 x5) x3 x4 := by
  have h := layer_stage (val_main_v48 (F := Ideal) x0 x1 x2 x3 x5) (val_main_v54 (F := Ideal) x5) (val_main_v60 (F := Ideal) x5)
    (val_main_v29 (F := Ideal) x5) x4
  refine h.trans ?_
  rw [v48_eq, v54_eq, v60_eq]
  rfl

/-! ## Pooling -/

/-- POOLING. The rows of `h` scatter-added into the zero array along the graph column `gi`: entry (g, q) is the sum
    of the entries (r, q) over the rows r whose graph index, read signed, is g. -/
theorem pool_stage (h : (⟨S100000x64, .f32⟩ : BufTy).Contents (Elt Ideal)) (gi : (⟨S100000x1, .i32⟩ : BufTy).Contents (Elt Ideal)) :
    Host.scatterAdd (F := Ideal) (φ := .f32) scatter_S512x64_S100000x1_S100000x64_1_0_0_1 (val_main_v66 (F := Ideal)) gi h
      = Cert.Spec.poolR h gi := by
  funext j
  unfold Host.scatterAdd
  rw [Ideal.hostScatterAdd_def]
  have hd : scatter_S512x64_S100000x1_S100000x64_1_0_0_1
      = Cert.LibRowScatter.rowScat 512 64 100000 Facts₀.scatter_S512x64_S100000x1_S100000x64_1_0_0_1_wf := rfl
  rw [hd, Cert.LibRowScatter.scatterAdd_rows_apply, val_main_v66_apply, val_main_cst_12_apply, Ideal.ofBits_def,
    Ideal.ofBits_zero_f32, zero_add]
  rfl

/-- The reference's result term: the pooled second layer (`Spec.poolR` of `Spec.layerR` of `Spec.layerR`) over the
    clipped node counts; the edge lists `val_main_v36` (sources, wrapped, as a column) and `val_main_v42`
    (destinations, as a column), the edge weights `val_main_v29`, the graph column `val_main_v67` and the divisor
    `val_main_v76` are the reference's own stages. -/
theorem ref_value (x0 : (⟨S100000x3, .f32⟩ : BufTy).Contents (Elt Ideal)) (x1 : (⟨S3x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S2x1000000, .i32⟩ : BufTy).Contents (Elt Ideal)) (x6 : (⟨S100000, .i32⟩ : BufTy).Contents (Elt Ideal)) :
    val_main_v77 (F := Ideal) x0 x1 x2 x3 x4 x5 x6
      = Host.divf (F := Ideal) (φ := .f32)
          (Cert.Spec.poolR
            (Cert.Spec.layerR (val_main_v36 (F := Ideal) x5) (val_main_v42 (F := Ideal) x5) (val_main_v29 (F := Ideal) x5)
              (Cert.Spec.layerR (val_main_v36 (F := Ideal) x5) (val_main_v42 (F := Ideal) x5) (val_main_v29 (F := Ideal) x5)
                x0 x1 x2)
              x3 x4)
            (val_main_v67 (F := Ideal) x6))
          (val_main_v76 (F := Ideal) x6) := by
  unfold val_main_v77 val_main_v68
  rw [pool_stage, v65_eq, v47_eq]

end Cert.ReferenceIdeal.RefValue

end
-- ==== Proof.Finite.lean ====
/-
  The precondition read: every entry of the five float arguments is a real number.

  The precondition is the conjunction, over the five float arguments, of "every entry's absolute value is below
  +∞"; an extended real whose absolute value (the larger of x and −x) is below +∞ is neither +∞ nor −∞.
-/
import proofs.«416046_j74466142978136_1_alg».proof.Pre_finite_inputs
import proofs.«416046_j74466142978136_1_alg».proof.Proof.Spec
import Idealize.ShloMosaic.Lib.ReduceAll
import Idealize.ShloMosaic.PureOps.Ideal.Laws
import Idealize.ShloMosaic.Lib.ValueIdx

noncomputable section

namespace Cert.Finite

open Idealize.ShloMosaic Idealize.ShloMosaic.ValueIdx Cert.Pre_finite_inputs

/-- The shape of a scalar has one index only. -/
local instance : Subsingleton S_.Idx := ⟨fun a b => funext fun d => d.elim0⟩

/-- The word 0x7F800000 (sign 0, exponent all ones, fraction 0) denotes +∞. -/
private theorem inf_word : Ideal.ofBits .f32 0x7F800000#32 = (⊤ : EReal) := by
  simp [Ideal.ofBits, Ideal.ieee]

/-- An extended real whose absolute value, the larger of x and −x, is below +∞ is a real number: at −∞ and at +∞
    the larger of the two is +∞. -/
private theorem real_of_abs_lt (x : EReal)
    (h : Ideal.cmp .olt (max x (-x)) (Ideal.ofBits .f32 0x7F800000#32) = 1#1) : Cert.Spec.IsReal x := by
  rw [inf_word] at h
  have h' : max x (-x) < ⊤ := by
    by_contra hc
    simp [Ideal.cmp, hc] at h
  induction x using EReal.rec with
  | bot => simp at h'
  | coe r => exact ⟨r, rfl⟩
  | top => simp at h'

/-- If the precondition holds of the arguments, every entry of `x`, `W1`, `b1`, `W2`, `b2` is a real number. -/
theorem real_of_pre [Cert.Pre_finite_inputs.Facts]
    (x0 : FVec Ideal S100000x3 .f32) (x1 : FVec Ideal S3x64 .f32) (x2 : FVec Ideal S64 .f32)
    (x3 : FVec Ideal S64x64 .f32) (x4 : FVec Ideal S64 .f32) (x5 : IVec S2x1000000 32) (x6 : IVec S100000 32)
    (h : Cert.Pre_finite_inputs.fn (F := Ideal) x0 x1 x2 x3 x4 x5 x6 = fun _ => 1#1) :
    (∀ i, Cert.Spec.IsReal (x0 i)) ∧ (∀ i, Cert.Spec.IsReal (x1 i)) ∧ (∀ i, Cert.Spec.IsReal (x2 i))
      ∧ (∀ i, Cert.Spec.IsReal (x3 i)) ∧ (∀ i, Cert.Spec.IsReal (x4 i)) := by
  have h0 := congrFun h ValueIdx.ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h00, h1⟩ := IntOp.andi_eq_one.1 h01
  refine ⟨fun i => ?_, fun i => ?_, fun i => ?_, fun i => ?_, fun i => ?_⟩
  · exact real_of_abs_lt (x0 i) (Host.reduce_andi_all _ _ _ _ _ h00 i)
  · exact real_of_abs_lt (x1 i) (Host.reduce_andi_all _ _ _ _ _ h1 i)
  · exact real_of_abs_lt (x2 i) (Host.reduce_andi_all _ _ _ _ _ h2 i)
  · exact real_of_abs_lt (x3 i) (Host.reduce_andi_all _ _ _ _ _ h3 i)
  · exact real_of_abs_lt (x4 i) (Host.reduce_andi_all _ _ _ _ _ h4 i)

end Cert.Finite

end
-- ==== Proof.NormReal.lean ====
/-
  Every edge weight is a real number.

  The edge weight of edge e is dinv (src e) · dinv (dst e), each factor read from the table dinv at a clamped index,
  where dinv i is the inverse square root of node i's degree where the degree is positive and 0 elsewhere. A degree is 0
  plus a sum of ones, so a natural number; the inverse square root of a positive real is a real; so every entry of
  dinv, and every product of two of them, is a real number.
-/
import proofs.«416046_j74466142978136_1_alg».proof.Proof.RefRead
import proofs.«416046_j74466142978136_1_alg».proof.Proof.Spec
import proofs.«416046_j74466142978136_1_alg».proof.Proof.Algebra

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

/-- The word 0x3F800000 denotes the real number 1: exponent field 127, fraction field 0, so 2^23 · 2^(-23). -/
private theorem one_word_real : Cert.Spec.IsReal (Ideal.ofBits .f32 0x3F800000#32) := by
  refine ⟨1, ?_⟩
  simp [Ideal.ofBits, Ideal.ieee]
  rw [← EReal.coe_mul, ← EReal.coe_one, EReal.coe_eq_coe_iff]
  norm_num

/-- A scatter-add of real updates into a real array is real: each entry is the array's entry plus a finite sum of
    updates. -/
private theorem scatterAdd_real {s si su : Shape} (d : ScatterDims s si su) {w : Nat} (x : FVec Ideal s .f32)
    (idx : IVec si w) (upd : FVec Ideal su .f32) (hx : ∀ i, Cert.Spec.IsReal (x i)) (hu : ∀ j, Cert.Spec.IsReal (upd j)) :
    ∀ i, Cert.Spec.IsReal (Host.scatterAdd d x idx upd i) := by
  intro i
  show Cert.Spec.IsReal (x i + ∑ j ∈ Finset.univ.filter (fun j => d.resultIdx? j idx = some i), upd j)
  exact Cert.Algebra.IsReal.add (hx i) (Cert.Algebra.isReal_sum _ _ fun j _ => hu j)

/-- The degree of a node is a real number: 0 plus a sum of ones. -/
private theorem deg_real (x5 : (⟨S2x1000000, .i32⟩ : BufTy).Contents (Elt Ideal)) :
    ∀ i, Cert.Spec.IsReal (val_main_v10 (F := Ideal) x5 i) := by
  have h8 : ∀ i, Cert.Spec.IsReal (val_main_v8 (F := Ideal) i) := by
    intro i
    rw [val_main_v8_apply, val_main_cst_0_apply, Ideal.ofBits_def, Ideal.ofBits_zero_f32]
    exact Cert.Algebra.isReal_zero
  have h7 : ∀ j, Cert.Spec.IsReal (val_main_v7 (F := Ideal) j) := by
    intro j
    rw [val_main_v7_apply, val_main_cst_apply, Ideal.ofBits_def]
    exact one_word_real
  exact scatterAdd_real _ _ _ _ h8 h7

/-- The inverse square root of a positive real number r is the real number 1 / √r. -/
private theorem rsqrt_real {x : EReal} (hx : Cert.Spec.IsReal x) (hpos : 0 < x) : Cert.Spec.IsReal (Ideal.rsqrt x) := by
  obtain ⟨r, rfl⟩ := hx
  have hr : 0 < r := EReal.coe_pos.1 hpos
  refine ⟨(Real.sqrt r)⁻¹, ?_⟩
  show (if r < 0 then (⊥ : EReal) else if r = 0 then ⊤ else ((Real.sqrt r)⁻¹ : ℝ)) = _
  rw [if_neg (not_lt.2 hr.le), if_neg hr.ne']

/-- A comparison "greater than 0" that answers the bit 1 says its operand is positive. -/
private theorem pos_of_cmp_ogt {x : EReal} (h : Ideal.cmp .ogt x 0 = 1#1) : 0 < x := by
  by_contra hn
  have h0 : Ideal.cmp .ogt x 0 = 0#1 := by
    show BitVec.ofBool (decide ((0 : EReal) < x)) = 0#1
    rw [decide_eq_false hn]
    rfl
  rw [h0] at h
  exact absurd h (by decide)

/-- The inverse square root of a real number x where x is positive, and 0 elsewhere, is a real number. -/
private theorem select_rsqrt_real {x z : EReal} (hx : Cert.Spec.IsReal x) (hz : z = 0) :
    Cert.Spec.IsReal (Scalar.select (Ideal.cmp .ogt x 0) (Ideal.rsqrt x) z) := by
  by_cases hc : Ideal.cmp .ogt x 0 = 1#1
  · rw [hc, select_one]
    exact rsqrt_real hx (pos_of_cmp_ogt hc)
  · rw [eq_zero_of_ne_one hc, select_zero, hz]
    exact Cert.Algebra.isReal_zero

/-- Every entry of the table dinv (the inverse square root of the degree where it is positive, 0 elsewhere) is a real
    number. -/
private theorem dinv_real (x5 : (⟨S2x1000000, .i32⟩ : BufTy).Contents (Elt Ideal)) :
    ∀ i, Cert.Spec.IsReal (val_main_v14 (F := Ideal) x5 i) := by
  intro i
  have h0 : val_main_v11 (F := Ideal) i = 0 := by
    rw [val_main_v11_apply, val_main_cst_1_apply, Ideal.ofBits_def, Ideal.ofBits_zero_f32]
  have hz : val_main_call0_v1 (F := Ideal) i = 0 := by
    rw [val_main_call0_v1_apply, val_main_call0_v0_apply, val_main_cst_2_apply, Ideal.ofBits_def, Ideal.ofBits_zero_f32]
  rw [val_main_v14_apply, val_main_v12_apply, val_main_v13_apply, Ideal.cmpf_def, Ideal.hostUnary_rsqrt_def, h0]
  exact select_rsqrt_real (deg_real x5 i) hz

/-- An entry of a gather is an entry of its operand, whatever index it reads. -/
private theorem gather_real {s si t : Shape} {w : Nat} (d : GatherDims s si t) (x : s.Idx → EReal) (idx : IVec si w)
    (hx : ∀ i, Cert.Spec.IsReal (x i)) : ∀ j, Cert.Spec.IsReal (Host.gather d x idx j) := by
  intro j
  unfold Host.gather
  exact hx _

/-- Every edge weight is a real number. -/
theorem nrm_real (x5 : (⟨S2x1000000, .i32⟩ : BufTy).Contents (Elt Ideal)) : ∀ e, Cert.Spec.IsReal (val_main_v29 (F := Ideal) x5 e) := by
  intro e
  rw [val_main_v29_apply, Ideal.mulf_def]
  exact Cert.Algebra.IsReal.mul (gather_real _ _ _ (dinv_real x5) e) (gather_real _ _ _ (dinv_real x5) e)

end Cert.ReferenceIdeal.RefValue

end
-- ==== Proof.Bridge.lean ====
/-
  The two programs' results are one function of the arguments, when the float arguments are real.

  The kernel's result is the pooled second layer, each layer aggregate-then-multiply, over the clipped node counts; the
  reference's is the same with each layer multiply-then-aggregate and the pooling a scatter-add. Layer by layer the two
  orders agree for real rows, real weights and real edge weights (the law of a layer), and a layer of real inputs is
  real, so the second layer's inputs are real too; the two poolings agree for any rows (the law of pooling). The
  kernel's bias rows are the bias vectors re-laid as 1 × 64 arrays and its graph column the graph vector re-laid as a
  100000 × 1 array: the same entries.
-/
import proofs.«416046_j74466142978136_1_alg».proof.Proof.Spec
import proofs.«416046_j74466142978136_1_alg».proof.Proof.Algebra
import proofs.«416046_j74466142978136_1_alg».proof.Proof.RefRead
import proofs.«416046_j74466142978136_1_alg».proof.Proof.NormReal
import Idealize.ShloMosaic.Lib.Pipeline.Value

noncomputable section

namespace Cert.Bridge

open Cert.ReferenceIdeal Cert.ReferenceIdeal.Gen Cert.ReferenceIdeal.Read Idealize.ShloMosaic Idealize.ShloMosaic.TcCoe
open Idealize.ShloMosaic.ValueIdx Cert.Spec Cert.Algebra

/-- A vector of 64 entries re-laid as a 1 × 64 array holds entry q at (0, q). -/
theorem biasRow_apply (b : (⟨1, ![64]⟩ : Shape).Idx → EReal) (h : (⟨1, ![64]⟩ : Shape).ShapeCasts ⟨2, ![1, 64]⟩) (q : Fin 64) :
    shapeCast (⟨2, ![1, 64]⟩ : Shape) b h (ix2 (0 : Fin 1) q) = b (ix1 q) :=
  shapeCast_apply b h (ix2 (0 : Fin 1) q) (ix1 q)
    (by rewrite [Shape.rowMajor_val_two, Shape.rowMajor_val_one]; show q.val = 0 * 64 + q.val; omega)

/-- A vector of 100000 words re-laid as a 100000 × 1 array holds entry r at (r, 0). -/
theorem graphCol_apply (b : (⟨1, ![100000]⟩ : Shape).Idx → BitVec 32) (h : (⟨1, ![100000]⟩ : Shape).ShapeCasts ⟨2, ![100000, 1]⟩)
    (r : Fin 100000) :
    shapeCast (⟨2, ![100000, 1]⟩ : Shape) b h (ix2 r (0 : Fin 1)) = b (ix1 r) :=
  shapeCast_apply b h (ix2 r (0 : Fin 1)) (ix1 r)
    (by rewrite [Shape.rowMajor_val_two, Shape.rowMajor_val_one]; show r.val = r.val * 1 + 0; omega)

/-- The same vector broadcast along a new trailing unit axis holds the same entries. -/
theorem graphBcast_apply (x6 : (⟨S100000, .i32⟩ : BufTy).Contents (Elt Ideal)) (r : Fin 100000) :
    val_main_v67 (F := Ideal) x6 (ix2 r (0 : Fin 1)) = x6 (ix1 r) := by
  rw [val_main_v67_apply]
  exact congrArg x6 (funext fun a => match a with | ⟨0, _⟩ => rfl)

/-- THE BRIDGE: for real float arguments, the kernel's pooled layers and the reference's are the same array. -/
theorem pooled_eq
    (x0 : (⟨S100000x3, .f32⟩ : BufTy).Contents (Elt Ideal)) (x1 : (⟨S3x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x5 : (⟨S2x1000000, .i32⟩ : BufTy).Contents (Elt Ideal))
    (x6 : (⟨S100000, .i32⟩ : BufTy).Contents (Elt Ideal))
    (hs : (⟨1, ![64]⟩ : Shape).ShapeCasts ⟨2, ![1, 64]⟩) (hg : (⟨1, ![100000]⟩ : Shape).ShapeCasts ⟨2, ![100000, 1]⟩)
    (h0 : ∀ i, IsReal (x0 i)) (h1 : ∀ i, IsReal (x1 i)) (h2 : ∀ i, IsReal (x2 i)) (h3 : ∀ i, IsReal (x3 i)) :
    poolK
        (layerK (val_main_v36 (F := Ideal) x5) (val_main_v42 (F := Ideal) x5) (val_main_v29 (F := Ideal) x5)
          (layerK (val_main_v36 (F := Ideal) x5) (val_main_v42 (F := Ideal) x5) (val_main_v29 (F := Ideal) x5)
            x0 x1 (shapeCast (⟨2, ![1, 64]⟩ : Shape) x2 hs))
          x3 (shapeCast (⟨2, ![1, 64]⟩ : Shape) x4 hs))
        (shapeCast (⟨2, ![100000, 1]⟩ : Shape) x6 hg)
      = poolR
          (layerR (val_main_v36 (F := Ideal) x5) (val_main_v42 (F := Ideal) x5) (val_main_v29 (F := Ideal) x5)
            (layerR (val_main_v36 (F := Ideal) x5) (val_main_v42 (F := Ideal) x5) (val_main_v29 (F := Ideal) x5) x0 x1 x2)
            x3 x4)
          (val_main_v67 (F := Ideal) x6) := by
  have hn := Cert.ReferenceIdeal.RefValue.nrm_real x5
  have e1 := layer_eq (val_main_v36 (F := Ideal) x5) (val_main_v42 (F := Ideal) x5) (val_main_v29 (F := Ideal) x5)
    x0 x1 x2 (shapeCast (⟨2, ![1, 64]⟩ : Shape) x2 hs) (biasRow_apply x2 hs) hn h0 h1
  have hH := layerR_real (val_main_v36 (F := Ideal) x5) (val_main_v42 (F := Ideal) x5) (val_main_v29 (F := Ideal) x5)
    x0 x1 x2 hn h0 h1 h2
  have e2 := layer_eq (val_main_v36 (F := Ideal) x5) (val_main_v42 (F := Ideal) x5) (val_main_v29 (F := Ideal) x5)
    (layerR (val_main_v36 (F := Ideal) x5) (val_main_v42 (F := Ideal) x5) (val_main_v29 (F := Ideal) x5) x0 x1 x2)
    x3 x4 (shapeCast (⟨2, ![1, 64]⟩ : Shape) x4 hs) (biasRow_apply x4 hs) hn hH h3
  rw [e1, e2]
  exact pool_eq _ _ _ fun r => (graphCol_apply x6 hg r).trans (graphBcast_apply x6 r).symm

end Cert.Bridge

end
-- ==== Proof.lean ====
/-
  The certificate's claims, assembled.

  The kernel is a two-layer graph convolution followed by a mean pooling over graphs. Each of its layers aggregates the
  node rows along the edges (with the symmetric degree normalisation as edge weights) and THEN multiplies by the layer's
  weight matrix; the reference multiplies first and aggregates afterwards. Aggregation is linear in the rows, so the two
  orders agree wherever every entry is a real number — which the precondition gives for the arguments, and which sums,
  products and clipping at 0 keep — and the extended reals' distributive law is only needed there. The kernel pools with
  a product by the one-hot matrix of the graph ids, tile by tile; the reference with a scatter-add along the graph ids:
  the same sums of rows. Both divide by the same clipped node counts.

  The three frames: the kernel's two are the generated frame certificates; the reference's is its run with the result
  dropped. The ideal pass rewrote nothing, so `preserves` is trivial. For `algebraic`, the kernel's run with its
  result (the launch over the frame's segments, read also at the result buffer) ends at the kernel's value, the
  reference's run at the reference's value, and the bridge joins them under the precondition.
-/
import proofs.«416046_j74466142978136_1_alg».proof.Defs
import proofs.«416046_j74466142978136_1_alg».proof.Proof.Gen.Kernel
import proofs.«416046_j74466142978136_1_alg».proof.Proof.Gen.Kernel.Skeleton
import proofs.«416046_j74466142978136_1_alg».proof.Proof.Gen.Kernel.Launch
import proofs.«416046_j74466142978136_1_alg».proof.Proof.Gen.Kernel.Points
import proofs.«416046_j74466142978136_1_alg».proof.Proof.Gen.Kernel.Frame
import proofs.«416046_j74466142978136_1_alg».proof.Proof.Gen.KernelIdeal
import proofs.«416046_j74466142978136_1_alg».proof.Proof.Gen.KernelIdeal.Skeleton
import proofs.«416046_j74466142978136_1_alg».proof.Proof.Gen.KernelIdeal.Launch
import proofs.«416046_j74466142978136_1_alg».proof.Proof.Gen.KernelIdeal.Points
import proofs.«416046_j74466142978136_1_alg».proof.Proof.Gen.KernelIdeal.Frame
import proofs.«416046_j74466142978136_1_alg».proof.Proof.Gen.ReferenceIdeal
import proofs.«416046_j74466142978136_1_alg».proof.Proof.Gen.Pre_finite_inputs
import proofs.«416046_j74466142978136_1_alg».proof.Proof.RefRun
import proofs.«416046_j74466142978136_1_alg».proof.Proof.RefRead
import proofs.«416046_j74466142978136_1_alg».proof.Proof.KRun
import proofs.«416046_j74466142978136_1_alg».proof.Proof.KChain
import proofs.«416046_j74466142978136_1_alg».proof.Proof.RefValue
import proofs.«416046_j74466142978136_1_alg».proof.Proof.Finite
import proofs.«416046_j74466142978136_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal values both programs end with the reference's result term of the kernel's arguments: the kernel's run
    ends at the pooled aggregate-then-multiply layers over the clipped counts, which under the precondition (real
    arguments) is the pooled multiply-then-aggregate layers over the same counts — the reference's term —, and the
    reference's run ends at that term of arguments that agree. -/
theorem algebraic : Cert.algebraic_KernelIdeal_ReferenceIdeal := by
  intro m ρ m' ρ' hpre hagree
  refine ⟨fun c => Cert.ReferenceIdeal.Read.val_main_v77 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.Gen.run_valued (F := Ideal) m ρ)
    obtain ⟨h0, h1, h2, h3, -⟩ := Cert.Finite.real_of_pre _ _ _ _ _ _ _ (hpre c)
    refine (Cert.KernelIdeal.HostValue.kernel_value m ρ c).trans ?_
    refine (congrArg (fun s => Host.divf (F := Ideal) (φ := .f32) s _)
      (Cert.Bridge.pooled_eq _ _ _ _ _ _ _ _ _ h0 h1 h2 h3)).trans ?_
    exact (Cert.ReferenceIdeal.RefValue.ref_value _ _ _ _ _ _ _).symm
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v77_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
